-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x32x32 : Shape := ⟨4, ![1, 2048, 32, 32]⟩
abbrev S64x64x32 : Shape := ⟨3, ![64, 64, 32]⟩
abbrev S65536x128 : Shape := ⟨2, ![65536, 128]⟩
abbrev S_ : Shape := ⟨0, ![]⟩

class Facts : Prop where
  bcast_S_S1x2048x32x32 : S_.BroadcastsInDim S1x2048x32x32 (![] : Fin 0 → Fin S1x2048x32x32.rank)
  reducesTo_S1x2048x32x32_S_d0_1_2_3 : S1x2048x32x32.ReducesTo [0, 1, 2, 3] S_
  h_S_ : 0 < S_.numel
  bcast_S_S64x64x32 : S_.BroadcastsInDim S64x64x32 (![] : Fin 0 → Fin S64x64x32.rank)
  reducesTo_S64x64x32_S_d0_1_2 : S64x64x32.ReducesTo [0, 1, 2] S_
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S1x2048x32x32 .f32) (main_arg1 : FVec F S64x64x32 .f32) (main_arg2 : FVec F S65536x128 .f32) : IVec S_ 1 :=
  let main_v0 : FVec F S1x2048x32x32 .f32 := Host.absf main_arg0
  let main_cst : FVec F S_ .f32 := constant S_ .f32 0x7F800000#32
  let main_v1 : FVec F S1x2048x32x32 .f32 := broadcastInDim S1x2048x32x32 ![] bcast_S_S1x2048x32x32 main_cst
  let main_v2 : IVec S1x2048x32x32 1 := cmpf .olt main_v0 main_v1
  let main_c : IVec S_ 1 := constantI S_ 1 1#1
  let main_v3 : IVec S_ 1 := (fun x v => Host.reduce IntOp.andi x v reducesTo_S1x2048x32x32_S_d0_1_2_3 h_S_) main_v2 main_c
  let main_v4 : FVec F S64x64x32 .f32 := Host.absf main_arg1
  let main_cst_0 : FVec F S_ .f32 := constant S_ .f32 0x7F800000#32
  let main_v5 : FVec F S64x64x32 .f32 := broadcastInDim S64x64x32 ![] bcast_S_S64x64x32 main_cst_0
  let main_v6 : IVec S64x64x32 1 := cmpf .olt main_v4 main_v5
  let main_c_1 : IVec S_ 1 := constantI S_ 1 1#1
  let main_v7 : IVec S_ 1 := (fun x v => Host.reduce IntOp.andi x v reducesTo_S64x64x32_S_d0_1_2 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  main_v13
-- ==== Kernel.lean ====
abbrev S1x2048x32x32 : Shape := ⟨4, ![1, 2048, 32, 32]⟩
abbrev S64x64x32 : Shape := ⟨3, ![64, 64, 32]⟩
abbrev S65536x128 : Shape := ⟨2, ![65536, 128]⟩
abbrev S64x1024x32 : Shape := ⟨3, ![64, 1024, 32]⟩
abbrev S2x128x64 : Shape := ⟨3, ![2, 128, 64]⟩
abbrev S8x1024x32 : Shape := ⟨3, ![8, 1024, 32]⟩
abbrev S8x64x32 : Shape := ⟨3, ![8, 64, 32]⟩
abbrev S8192x128 : Shape := ⟨2, ![8192, 128]⟩
abbrev S1x128x64 : Shape := ⟨3, ![1, 128, 64]⟩
abbrev S128x64 : Shape := ⟨2, ![128, 64]⟩
abbrev S8x1024x64 : Shape := ⟨3, ![8, 1024, 64]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S128 : Shape := ⟨1, ![128]⟩
abbrev S128x1 : Shape := ⟨2, ![128, 1]⟩

abbrev nBuf : Space → Nat
  | .hbm => 23
  | .vmem => 9
  | .smem => 0
  | _ => 0

abbrev bufTy : (tb : Table) → Fin (tcTables nBuf tb) → BufTy
  | .hbm, ⟨0, _⟩ => ⟨S1x2048x32x32, .f32⟩
  | .hbm, ⟨1, _⟩ => ⟨S64x64x32, .f32⟩
  | .hbm, ⟨2, _⟩ => ⟨S65536x128, .f32⟩
  | .hbm, ⟨3, _⟩ => ⟨S64x1024x32, .f32⟩
  | .hbm, ⟨4, _⟩ => ⟨S2x128x64, .f32⟩
  | .hbm, ⟨5, _⟩ => ⟨S_, .f32⟩
  | .hbm, ⟨6, _⟩ => ⟨S128x64, .f32⟩
  | .hbm, ⟨7, _⟩ => ⟨S128x64, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x64, .f32⟩
  | .hbm, ⟨16, _⟩ => ⟨S128x64, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x64, .f32⟩
  | .hbm, ⟨22, _⟩ => ⟨S128x64, .f32⟩
  | .local _ .vmem, ⟨0, _⟩ => ⟨S8x1024x32, .f32⟩
  | .local _ .vmem, ⟨1, _⟩ => ⟨S8x1024x32, .f32⟩
  | .local _ .vmem, ⟨2, _⟩ => ⟨S8x64x32, .f32⟩
  | .local _ .vmem, ⟨3, _⟩ => ⟨S8x64x32, .f32⟩
  | .local _ .vmem, ⟨4, _⟩ => ⟨S8192x128, .f32⟩
  | .local _ .vmem, ⟨5, _⟩ => ⟨S8192x128, .f32⟩
  | .local _ .vmem, ⟨6, _⟩ => ⟨S1x128x64, .f32⟩
  | .local _ .vmem, ⟨7, _⟩ => ⟨S1x128x64, .f32⟩
  | .local _ .vmem, ⟨8, _⟩ => ⟨S128x64, .f32⟩
  | _, _ => ⟨S1x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x2048x32x32_S64x1024x32 : S1x2048x32x32.ShapeCasts S64x1024x32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8x1024x32_S8x1024x32_0_0_0 : ∀ a, (![0, 0, 0] : Fin 3 → Nat) a + S8x1024x32.size a ≤ S8x1024x32.size a
  h_S8x1024x32 : 0 < S8x1024x32.numel
  shapeCasts_S8x1024x32_S8x1024x32 : S8x1024x32.ShapeCasts S8x1024x32
  bitsLt_bf16_f32 : FTy.bits .bf16 < FTy.bits .f32
  inb_S8x64x32_S8x64x32_0_0_0 : ∀ a, (![0, 0, 0] : Fin 3 → Nat) a + S8x64x32.size a ≤ S8x64x32.size a
  h_S8x64x32 : 0 < S8x64x32.numel
  shapeCasts_S8x1024x64_S8192x64 : S8x1024x64.ShapeCasts S8192x64
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  broadcasts_S8192x1_S8192x64 : S8192x1.Broadcasts S8192x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  reducesTo_S2x128x64_S128x64_d0 : S2x128x64.ReducesTo [0] S128x64
  h_S_ : 0 < S_.numel
  reducesTo_S128x64_S128_d1 : S128x64.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)
  dot_S8x1024x32_S8x64x32_S8x1024x64_2_2_1_1_0_0_wf : DotDims.WF S8x1024x32 S8x64x32 S8x1024x64 [2] [2] [1] [1] [0] [0]
  dot_S8192x128_S8192x64_S128x64_0_0_1_1_n_n_wf : DotDims.WF S8192x128 S8192x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x32.size a ≤ S64x1024x32.size a
  hwx0_0 : ∀ i : grid0.Coords, EltTy.bits .f32 = 32 ∨ (Rect.block (s := S64x1024x32) S8x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x32.size a ≤ S64x64x32.size a
  hwx0_1 : ∀ i : grid0.Coords, EltTy.bits .f32 = 32 ∨ (Rect.block (s := S64x64x32) S8x64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S2x128x64.size a
  hwx0_3 : ∀ i : grid0.Coords, EltTy.bits .f32 = 32 ∨ (Rect.block (s := S2x128x64) S1x128x64.size (cc0_transform_3 i) (hinb0_3 i)).WholeWords (EltTy.packing .f32)

variable [Facts₀]

def dot_S8x1024x32_S8x64x32_S8x1024x64_2_2_1_1_0_0 : DotDims S8x1024x32 S8x64x32 S8x1024x64 where
  lhsContracting := [2]
  rhsContracting := [2]
  lhsNonContracting := [1]
  rhsNonContracting := [1]
  lhsBatch := [0]
  rhsBatch := [0]
  wf := dot_S8x1024x32_S8x64x32_S8x1024x64_2_2_1_1_0_0_wf
def dot_S8192x128_S8192x64_S128x64_0_0_1_1_n_n : DotDims S8192x128 S8192x64 S128x64 where
  lhsContracting := [0]
  rhsContracting := [0]
  lhsNonContracting := [1]
  rhsNonContracting := [1]
  lhsBatch := []
  rhsBatch := []
  wf := dot_S8192x128_S8192x64_S128x64_0_0_1_1_n_n_wf

abbrev win0_0 : Pipeline.Window sig grid0 :=
  Pipeline.Window.ofSpec (Memref.whole main_v0) S8x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x2048x32x32 : Shape := ⟨4, ![1, 2048, 32, 32]⟩
abbrev S64x64x32 : Shape := ⟨3, ![64, 64, 32]⟩
abbrev S65536x128 : Shape := ⟨2, ![65536, 128]⟩
abbrev S64x1024x32 : Shape := ⟨3, ![64, 1024, 32]⟩
abbrev S64x1024x64 : Shape := ⟨3, ![64, 1024, 64]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S128x65536 : Shape := ⟨2, ![128, 65536]⟩
abbrev S128x64 : Shape := ⟨2, ![128, 64]⟩
abbrev S128 : Shape := ⟨1, ![128]⟩
abbrev S128x1 : Shape := ⟨2, ![128, 1]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x32x32, .f32⟩
  | .hbm, ⟨1, _⟩ => ⟨S64x64x32, .f32⟩
  | .hbm, ⟨2, _⟩ => ⟨S65536x128, .f32⟩
  | .hbm, ⟨3, _⟩ => ⟨S64x1024x32, .f32⟩
  | .hbm, ⟨4, _⟩ => ⟨S64x1024x64, .f32⟩
  | .hbm, ⟨5, _⟩ => ⟨S65536x64, .f32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S65536x1, .f32⟩
  | .hbm, ⟨12, _⟩ => ⟨S65536x128, .f32⟩
  | .hbm, ⟨13, _⟩ => ⟨S65536x128, .f32⟩
  | .hbm, ⟨14, _⟩ => ⟨S65536x128, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S65536x128, .f32⟩
  | .hbm, ⟨19, _⟩ => ⟨S65536x128, .f32⟩
  | .hbm, ⟨20, _⟩ => ⟨S128x65536, .f32⟩
  | .hbm, ⟨21, _⟩ => ⟨S128x64, .f32⟩
  | .hbm, ⟨22, _⟩ => ⟨S128x64, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S128x64, .f32⟩
  | .hbm, ⟨31, _⟩ => ⟨S128x64, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S128x1, .f32⟩
  | .hbm, ⟨36, _⟩ => ⟨S128x64, .f32⟩
  | .hbm, ⟨37, _⟩ => ⟨S128x64, .f32⟩
  | _, _ => ⟨S1x2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S1x2048x32x32_S64x1024x32 : S1x2048x32x32.ShapeCasts S64x1024x32
  shapeCasts_S64x1024x64_S65536x64 : S64x1024x64.ShapeCasts S65536x64
  reducesTo_S65536x128_S65536_d1 : S65536x128.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  transposes_S65536x128_S128x65536_1_0 : S65536x128.Transposes [1, 0] S128x65536
  reducesTo_S128x64_S128_d1 : S128x64.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)
  dot_S64x1024x32_S64x64x32_S64x1024x64_2_2_1_1_0_0_wf : DotDims.WF S64x1024x32 S64x64x32 S64x1024x64 [2] [2] [1] [1] [0] [0]
  dot_S128x65536_S65536x64_S128x64_1_0_0_1_n_n_wf : DotDims.WF S128x65536 S65536x64 S128x64 [1] [0] [0] [1] [] []

variable [Facts₀]

def dot_S64x1024x32_S64x64x32_S64x1024x64_2_2_1_1_0_0 : DotDims S64x1024x32 S64x64x32 S64x1024x64 where
  lhsContracting := [2]
  rhsContracting := [2]
  lhsNonContracting := [1]
  rhsNonContracting := [1]
  lhsBatch := [0]
  rhsBatch := [0]
  wf := dot_S64x1024x32_S64x64x32_S64x1024x64_2_2_1_1_0_0_wf
def dot_S128x65536_S65536x64_S128x64_1_0_0_1_n_n : DotDims S128x65536 S65536x64 S128x64 where
  lhsContracting := [1]
  rhsContracting := [0]
  lhsNonContracting := [0]
  rhsNonContracting := [1]
  lhsBatch := []
  rhsBatch := []
  wf := dot_S128x65536_S65536x64_S128x64_1_0_0_1_n_n_wf

class Facts : Prop extends Facts₀ where

variable [Facts]
-- ==== Proof.Pieces.lean ====
/-
  What each control case of the kernel body leaves behind, as payload terms.

  The body keeps a 128 x 64 accumulator in scratch.  At the first step of a core (case A) it stores
  zeros, reads them back and stores zeros plus the step's contribution; at a middle step (case B) it
  stores the accumulator it found plus the contribution; at the last step (case C) it does the same
  and then copies the accumulator, reshaped to 1 x 128 x 64, into the output block.  Each store covers
  the whole buffer, so what the buffer holds afterwards is the last store's value, with every load
  read as the contents the buffer had.
-/
import proofs.«424506_j7670811590780_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves the accumulator it found plus the step's contribution. -/
theorem scratch_B (c : Dev nD) (i : grid0.Coords) (arg2 : Memref sig .tc .vmem S8x1024x32 .f32) (harg2 : arg2.IsWhole) (arg3 : Memref sig .tc .vmem S8x64x32 .f32) (harg3 : arg3.IsWhole) (arg4 : Memref sig .tc .vmem S8192x128 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : ¬cond0_1 i)
    (x0 : Vec F S8x1024x32 .f32) (x1 : Vec F S8x64x32 .f32) (x2 : Vec F S8192x128 .f32) (xs0 : Vec F S128x64 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S8x1024x32) hz3, View.ld_unit_zero (S := S8x64x32) hz3,
    View.ld_unit_zero (S := S8192x128) hz2, View.ld_unit_zero (S := S128x64) hz2]

/-- The first step of a core leaves zeros plus the step's contribution: the zeros it stored are what
    it reads back. -/
theorem scratch_A (c : Dev nD) (i : grid0.Coords) (arg2 : Memref sig .tc .vmem S8x1024x32 .f32) (harg2 : arg2.IsWhole) (arg3 : Memref sig .tc .vmem S8x64x32 .f32) (harg3 : arg3.IsWhole) (arg4 : Memref sig .tc .vmem S8192x128 .f32) (harg4 : arg4.IsWhole) (arg5 : Memref sig .tc .vmem S1x128x64 .f32) (harg5 : arg5.IsWhole) (arg6 : Memref sig .tc .vmem S128x64 .f32) (harg6 : arg6.IsWhole) (hc0 : cond0_0 i) (hc1 : ¬cond0_1 i)
    (x0 : Vec F S8x1024x32 .f32) (x1 : Vec F S8x64x32 .f32) (x2 : Vec F S8192x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x64) hz2, View.readCov_unit_zero (S := S128x64) _ hz2]
  simp only [View.readAt_eq_ld, harg2.read_unread, harg3.read_unread, harg4.read_unread,
    View.ld_unit_zero (S := S8x1024x32) hz3, View.ld_unit_zero (S := S8x64x32) hz3,
    View.ld_unit_zero (S := S8192x128) hz2, View.ld_unit_zero (S := S128x64) hz2]

/-- The last step of a core leaves, in scratch, the accumulator it found plus the contribution -/
theorem scratch_C (c : Dev nD) (i : grid0.Coords) (arg2 : Memref sig .tc .vmem S8x1024x32 .f32) (harg2 : arg2.IsWhole) (arg3 : Memref sig .tc .vmem S8x64x32 .f32) (harg3 : arg3.IsWhole) (arg4 : Memref sig .tc .vmem S8192x128 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : cond0_1 i)
    (x0 : Vec F S8x1024x32 .f32) (x1 : Vec F S8x64x32 .f32) (x2 : Vec F S8192x128 .f32) (xs0 : Vec F S128x64 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S8x1024x32) hz3, View.ld_unit_zero (S := S8x64x32) hz3,
    View.ld_unit_zero (S := S8192x128) hz2, View.ld_unit_zero (S := S128x64) hz2]

/-- and, in the output block, that same sum reshaped: the copy reads back the store before it. -/
theorem out_C (c : Dev nD) (i : grid0.Coords) (arg2 : Memref sig .tc .vmem S8x1024x32 .f32) (harg2 : arg2.IsWhole) (arg3 : Memref sig .tc .vmem S8x64x32 .f32) (harg3 : arg3.IsWhole) (arg4 : Memref sig .tc .vmem S8192x128 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : cond0_1 i)
    (x0 : Vec F S8x1024x32 .f32) (x1 : Vec F S8x64x32 .f32) (x2 : Vec F S8192x128 .f32) (xs0 : Vec F S128x64 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, View.readCov_unit_zero (S := S128x64) _ hz2, harg2.read_unread, harg3.read_unread,
    harg4.read_unread, harg6.read_unread,
    View.ld_unit_zero (S := S8x1024x32) hz3, View.ld_unit_zero (S := S8x64x32) hz3,
    View.ld_unit_zero (S := S8192x128) hz2, View.ld_unit_zero (S := S128x64) hz2]

end Cert.KernelIdeal.Carried

end
-- ==== Proof.Chain.lean ====
/-
  The accumulator across the grid.

  The grid has 8 points, 4 to a core; the scratch accumulator is reset at the points 0 and 4, grows
  by one contribution at every point, and is copied to the output block at the points 3 and 7.  So the
  block written back at point n + 3, n a multiple of 4, is zero plus the contributions of the points
  n, n + 1, n + 2, n + 3, added in that order.
-/
import proofs.«424506_j7670811590780_3_alg».proof.Proof.Pieces

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ)

/-- The accumulator xs after the body has run at position n: xs plus the contribution of the three
    input blocks of that point. -/
def stepAt (c : Dev nD) (n : ℕ) (hn : n < cfg0.N) (xs : Vec F S128x64 .f32) : Vec F S128x64 .f32 :=
  k0_pay2 (iblk m c 0 ⟨n, hn⟩) (iblk m c 1 ⟨n, hn⟩) (iblk m c 2 ⟨n, hn⟩) xs

/-- At a core's first point the scratch ends at zero plus the point's contribution. -/
theorem scratch_first (c : Dev nD) (n : ℕ) (hn : n < cfg0.N) (h0 : n % 4 = 0) :
    (outsAt0 m c n hn).2 = stepAt m c n hn (k0_pay1 (F := F)) := by
  have h1 : ¬n % 4 = 3 := by omega
  rw [outsAt0_A m c ⟨n, hn⟩ h0 h1]
  dsimp only
  exact scratch_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)

/-- At any other point it ends at what the point before left plus the point's contribution. -/
theorem scratch_next (c : Dev nD) (n : ℕ) (hn : n + 1 < cfg0.N) (h0 : ¬(n + 1) % 4 = 0) :
    (outsAt0 m c (n + 1) hn).2 = stepAt m c (n + 1) hn (outsAt0 m c n (Nat.lt_of_succ_lt hn)).2 := by
  by_cases h1 : (n + 1) % 4 = 3
  · rw [outsAt0_C m c ⟨n + 1, hn⟩ h0 h1]
    dsimp only
    exact scratch_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2
  · rw [outsAt0_B m c ⟨n + 1, hn⟩ h0 h1]
    dsimp only
    exact scratch_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2

/-- At a core's last point the output block ends at that same sum, reshaped. -/
theorem out_last (c : Dev nD) (n : ℕ) (hn : n + 1 < cfg0.N) (h1 : (n + 1) % 4 = 3) :
    (outsAt0 m c (n + 1) hn).1 = k0_pay3 (stepAt m c (n + 1) hn (outsAt0 m c n (Nat.lt_of_succ_lt hn)).2) := by
  have h0 : ¬(n + 1) % 4 = 0 := by omega
  rw [outsAt0_C m c ⟨n + 1, hn⟩ h0 h1]
  dsimp only
  exact out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2

/-- The block written back at point n + 3, for n a multiple of 4: zero plus the four contributions
    of the core's points, in order. -/
theorem out_core (c : Dev nD) (n : ℕ) (hn : n + 3 < cfg0.N) (h : n % 4 = 0) :
    (outsAt0 m c (n + 3) hn).1
      = k0_pay3 (stepAt m c (n + 3) hn (stepAt m c (n + 2) (by omega) (stepAt m c (n + 1) (by omega)
          (stepAt m c n (by omega) (k0_pay1 (F := F)))))) := by
  rw [out_last m c (n + 2) hn (by omega), scratch_next m c (n + 1) (by omega) (by omega),
    scratch_next m c n (by omega) (by omega), scratch_first m c n (by omega) h]

end Cert.KernelIdeal.Carried

end
-- ==== Proof.Algebra.lean ====
/-
  Extended-real laws behind the routing-by-agreement certificate.

  The kernel forms, for each input capsule r and output capsule o, the product
  e(r,o) * (p(r,e) / d(r)) and sums it over r; the reference forms (e(r,o) / d(r)) * p(r,e) and
  sums the same way.  Here d(r) is the softmax denominator, the sum over o of
  exp (b(r,o) - max_o b(r,o)).  Division by a NONZERO extended real is multiplication by its inverse,
  and multiplication of extended reals is commutative and associative, so the two products are equal
  as soon as d(r) is not zero; and d(r) is not zero when the row b(r,.) is finite, because then
  every exponent is different from -oo.

  The squash at the end multiplies by rsqrt (n + eps) on one side and divides by sqrt (n + eps) on
  the other; these agree at every positive extended real, +oo included, and n + eps is positive
  because n is a sum of squares and eps is a positive literal.
-/
import Idealize.ShloMosaic.PureOps.Ideal
import Idealize.ShloMosaic.PureOps.Ideal.Laws

namespace Cert.Routing

open Idealize.ShloMosaic

/-- Dividing the second factor or the first by a nonzero d gives the same product. -/
theorem mul_div_eq_div_mul (e p d : EReal) (hd : d ≠ 0) :
    e * Ideal.div p d = Ideal.div e d * p := by
  rw [Ideal.div, if_neg hd, Ideal.div, if_neg hd, mul_comm p, ← mul_assoc]

/-- A product with the reciprocal square root is the quotient by the square root, at every positive
    extended real: at +oo both are 0, at a positive real both are the product with the inverse of
    the root. -/
theorem mul_rsqrt_eq_div_sqrt (a y : EReal) (hy : 0 < y) :
    a * Ideal.rsqrt y = Ideal.div a (Ideal.sqrt y) := by
  induction y using EReal.rec with
  | bot => exact absurd hy (not_lt.mpr bot_le)
  | top =>
    rw [Ideal.rsqrt_top, Ideal.sqrt_top, Ideal.div, if_neg EReal.top_ne_zero, EReal.inv_top]
  | coe r =>
    have hr : 0 < r := EReal.coe_pos.mp hy
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div, if_neg (by exact_mod_cast hs), EReal.coe_inv]

/-- The exponential is never negative. -/
theorem exp_nonneg (z : EReal) : 0 ≤ Ideal.exp z := by
  induction z using EReal.rec with
  | bot => rw [Ideal.exp_bot]
  | top => rw [Ideal.exp_top]; exact le_top
  | coe r => rw [Ideal.exp_coe]; exact_mod_cast (Real.exp_pos r).le

/-- and is positive away from -oo. -/
theorem exp_pos_of_ne_bot (z : EReal) (hz : z ≠ ⊥) : 0 < Ideal.exp z := by
  induction z using EReal.rec with
  | bot => exact absurd rfl hz
  | top => rw [Ideal.exp_top]; exact EReal.zero_lt_top
  | coe r => rw [Ideal.exp_coe]; exact_mod_cast Real.exp_pos r

/-- A square of an extended real is never negative (the square of either infinity is +oo). -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

end Cert.Routing
-- ==== Proof.Spec.lean ====
/-
  The routing step as plain functions of extended reals, row by row.

  For one input capsule with logits beta(0..127), the softmax weights are
  sx beta o = exp (beta o - rowMax beta) over their sum den beta.  A capsule with prediction p
  contributes to output capsule o the product that the kernel writes sx * (p / den) and the
  reference writes (sx / den) * p.  When every logit of the row is finite the denominator is not
  zero, and then the two are one number: termK_eq_termR.

  The squash of a 128 x 64 array S of extended reals scales row o by n / (1 + n) and by the
  reciprocal root of n + eps, n the sum of the row's squares; one side multiplies by rsqrt, the
  other divides by sqrt, and for a positive eps they agree at every S: squashK_eq_squashR.
-/
import proofs.«424506_j7670811590780_3_alg».proof.Proof.Algebra
import Mathlib.Algebra.Order.BigOperators.Group.Finset
import Mathlib.Data.Finset.Fold
import Mathlib.Algebra.BigOperators.Fin
import Mathlib.Logic.Equiv.Fin.Basic

noncomputable section

namespace Cert.Routing

open Idealize.ShloMosaic

/-! ## One row of the softmax -/

/-- The largest logit of a row, as the fold of max from -oo. -/
def rowMax (β : Fin 128 → EReal) : EReal := (Finset.univ : Finset (Fin 128)).fold max ⊥ β

/-- The unnormalised softmax weight of output capsule o. -/
def sx (β : Fin 128 → EReal) (o : Fin 128) : EReal := Ideal.exp (β o - rowMax β)

/-- The softmax denominator of the row. -/
def den (β : Fin 128 → EReal) : EReal := ∑ o : Fin 128, sx β o

/-- What a capsule with prediction p adds to output capsule o, as the kernel forms it -/
def termK (β : Fin 128 → EReal) (p : EReal) (o : Fin 128) : EReal := sx β o * Ideal.div p (den β)

/-- and as the reference forms it. -/
def termR (β : Fin 128 → EReal) (p : EReal) (o : Fin 128) : EReal := Ideal.div (sx β o) (den β) * p

/-- A row without +oo has a maximum below +oo. -/
theorem rowMax_lt_top (β : Fin 128 → EReal) (hβ : ∀ o, β o ≠ ⊤) : rowMax β < ⊤ := by
  unfold rowMax
  rw [Finset.fold_max_lt]
  exact ⟨bot_lt_top, fun o _ => lt_top_iff_ne_top.mpr (hβ o)⟩

/-- On a finite row every exponent is above -oo, so every weight is positive -/
theorem sx_pos (β : Fin 128 → EReal) (hβ : ∀ o, β o ≠ ⊥ ∧ β o ≠ ⊤) (o : Fin 128) : 0 < sx β o := by
  unfold sx
  refine exp_pos_of_ne_bot _ fun h => ?_
  rw [sub_eq_add_neg, EReal.add_eq_bot_iff, EReal.neg_eq_bot_iff] at h
  rcases h with h | h
  · exact (hβ o).1 h
  · exact (rowMax_lt_top β fun o => (hβ o).2).ne h

/-- and the denominator, which is at least the first weight, is not zero. -/
theorem den_ne_zero (β : Fin 128 → EReal) (hβ : ∀ o, β o ≠ ⊥ ∧ β o ≠ ⊤) : den β ≠ 0 := by
  have h0 : sx β 0 ≤ den β :=
    Finset.single_le_sum (f := sx β) (fun o _ => exp_nonneg _) (Finset.mem_univ (0 : Fin 128))
  exact (lt_of_lt_of_le (sx_pos β hβ 0) h0).ne'

/-- The kernel's and the reference's contribution are one number on a finite row. -/
theorem termK_eq_termR (β : Fin 128 → EReal) (hβ : ∀ o, β o ≠ ⊥ ∧ β o ≠ ⊤) (p : EReal) (o : Fin 128) :
    termK β p o = termR β p o :=
  mul_div_eq_div_mul _ _ _ (den_ne_zero β hβ)

/-! ## The squash -/

/-- The sum of the squares of row o. -/
def norm2 (S : Fin 128 → Fin 64 → EReal) (o : Fin 128) : EReal := ∑ e : Fin 64, S o e * S o e

/-- The squash with a product by the reciprocal root -/
def squashK (one eps : EReal) (S : Fin 128 → Fin 64 → EReal) (o : Fin 128) (e : Fin 64) : EReal :=
  (Ideal.div (norm2 S o) (one + norm2 S o) * S o e) * Ideal.rsqrt (norm2 S o + eps)

/-- and with a quotient by the root. -/
def squashR (one eps : EReal) (S : Fin 128 → Fin 64 → EReal) (o : Fin 128) (e : Fin 64) : EReal :=
  Ideal.div (Ideal.div (norm2 S o) (one + norm2 S o) * S o e) (Ideal.sqrt (norm2 S o + eps))

theorem norm2_nonneg (S : Fin 128 → Fin 64 → EReal) (o : Fin 128) : 0 ≤ norm2 S o :=
  Finset.sum_nonneg fun e _ => mul_self_nonneg (S o e)

/-- A sum of squares plus a positive number is positive, so the two squashes agree everywhere. -/
theorem squashK_eq_squashR (one eps : EReal) (heps : 0 < eps) (S : Fin 128 → Fin 64 → EReal) (o : Fin 128) (e : Fin 64) :
    squashK one eps S o e = squashR one eps S o e :=
  mul_rsqrt_eq_div_sqrt _ _ (lt_of_lt_of_le heps (le_add_of_nonneg_left (norm2_nonneg S o)))

/-! ## Rows, groups and blocks

The 65536 input capsules are 64 groups of 1024 positions, row r being position r % 1024 of group
r / 1024; a grid point handles 8 groups, 8192 rows, and row r' of point t is row 8192 t + r'. -/

/-- The group of a row -/
def grp64 (r : Fin 65536) : Fin 64 := ⟨r.val / 1024, by have := r.isLt; omega⟩
/-- and its position in the group. -/
def pos64 (r : Fin 65536) : Fin 1024 := ⟨r.val % 1024, Nat.mod_lt _ (by decide)⟩
/-- The same inside one grid point's 8192 rows. -/
def grp8 (r : Fin 8192) : Fin 8 := ⟨r.val / 1024, by have := r.isLt; omega⟩
def pos8 (r : Fin 8192) : Fin 1024 := ⟨r.val % 1024, Nat.mod_lt _ (by decide)⟩
/-- Row r' of grid point t among all rows -/
def row (t : Fin 8) (r : Fin 8192) : Fin 65536 := ⟨8192 * t.val + r.val, by have := t.isLt; have := r.isLt; omega⟩
/-- and group g of grid point t among all groups. -/
def grpOf (t : Fin 8) (g : Fin 8) : Fin 64 := ⟨8 * t.val + g.val, by have := t.isLt; have := g.isLt; omega⟩

theorem grp64_row (t : Fin 8) (r : Fin 8192) : grp64 (row t r) = grpOf t (grp8 r) :=
  Fin.ext (by show (8192 * t.val + r.val) / 1024 = 8 * t.val + r.val / 1024; omega)
theorem pos64_row (t : Fin 8) (r : Fin 8192) : pos64 (row t r) = pos8 r :=
  Fin.ext (by show (8192 * t.val + r.val) % 1024 = r.val % 1024; omega)

/-- A sum over all rows is the sum over the grid points of the sums over their rows. -/
theorem sum_rows (f : Fin 65536 → EReal) : ∑ r : Fin 65536, f r = ∑ t : Fin 8, ∑ r' : Fin 8192, f (row t r') := by
  rw [← Finset.sum_product' (s := Finset.univ) (t := Finset.univ) (f := fun t r' => f (row t r')), Finset.univ_product_univ]
  refine (Equiv.sum_comp (finProdFinEquiv (m := 8) (n := 8192)) f).symm.trans (Finset.sum_congr rfl fun p _ => congrArg f (Fin.ext ?_))
  show p.2.val + 8192 * p.1.val = 8192 * p.1.val + p.2.val
  omega

/-! ## The three literals -/

/-- The pattern of -oo. -/
theorem ofBits_ninf : Ideal.ofBits .f32 0xFF800000#32 = ⊥ := by
  simp [Ideal.ofBits, Ideal.ieee]

/-- The literal 1e-8 (as a float32) is a positive real. -/
theorem ofBits_eps_pos : 0 < Ideal.ofBits .f32 0x322BCC77#32 := by
  simp [Ideal.ofBits, Ideal.ieee, -EReal.coe_mul]

end Cert.Routing

end
-- ==== Proof.Blocks.lean ====
/-
  The blocks of a grid point, read at an index.

  Point t of the 8-point grid stages block t of each input along the leading axis: groups
  8 t .. 8 t + 7 of the reshaped input and of the weights, rows 8192 t .. 8192 t + 8191 of the logits.
  The output window's block index is t / 4: one 128 x 64 block per core.
-/
import proofs.«424506_j7670811590780_3_alg».proof.Proof.Chain
import proofs.«424506_j7670811590780_3_alg».proof.Proof.Spec
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.Routing ValueIdx

variable {F : FTy → Type} [FloatOps F]
variable (m : (ℓ : Loc nD τ sig) → Buf (Elt F) ℓ)

/-- A grid point as a number below 8. -/
def pt (t : Fin cfg0.N) : Fin 8 := ⟨t.val, lt_of_lt_of_eq t.isLt (show cfg0.N = 8 from N_0)⟩

/-- The three input blocks of a point and the three arrays they are cut from, at their literal shapes. -/
abbrev ublk (c : Dev nD) (t : Fin cfg0.N) : Vec F S8x1024x32 .f32 := iblk m c 0 t
abbrev wblk (c : Dev nD) (t : Fin cfg0.N) : Vec F S8x64x32 .f32 := iblk m c 1 t
abbrev bblk (c : Dev nD) (t : Fin cfg0.N) : Vec F S8192x128 .f32 := iblk m c 2 t
abbrev uarr (c : Dev nD) : Vec F S64x1024x32 .f32 := V m c main_v0
abbrev warr (c : Dev nD) : Vec F S64x64x32 .f32 := V m c main_arg1
abbrev barr (c : Dev nD) : Vec F S65536x128 .f32 := V m c main_arg2

/-- The printed index maps, decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- Group g of point t's input block is group 8 t + g of the reshaped input. -/
theorem ublk_apply (c : Dev nD) (t : Fin cfg0.N) (g : Fin 8) (j : Fin 1024) (d : Fin 32) :
    ublk m c t (ix3 g j d) = uarr m c (ix3 (grpOf (pt t) g) j d) := by
  obtain ⟨e0, e1, e2, -⟩ := idx_facts t
  show V m c main_v0 (((cfg0.win 0).blk t).view.emb (ix3 g j d)) = V m c main_v0 (ix3 (grpOf (pt t) g) j d)
  refine congrArg _ (funext fun a => Fin.ext ?_)
  match a with
  | ⟨0, _⟩ => show win0_0.index t (0 : Fin 3) * 8 + 1 * g.val = 8 * t.val + g.val; omega
  | ⟨1, _⟩ => show win0_0.index t (1 : Fin 3) * 1024 + 1 * j.val = j.val; omega
  | ⟨2, _⟩ => show win0_0.index t (2 : Fin 3) * 32 + 1 * d.val = d.val; omega

/-- The same for the weights. -/
theorem wblk_apply (c : Dev nD) (t : Fin cfg0.N) (g : Fin 8) (e : Fin 64) (d : Fin 32) :
    wblk m c t (ix3 g e d) = warr m c (ix3 (grpOf (pt t) g) e d) := by
  obtain ⟨-, -, -, e0, e1, e2, -⟩ := idx_facts t
  show V m c main_arg1 (((cfg0.win 1).blk t).view.emb (ix3 g e d)) = V m c main_arg1 (ix3 (grpOf (pt t) g) e d)
  refine congrArg _ (funext fun a => Fin.ext ?_)
  match a with
  | ⟨0, _⟩ => show win0_1.index t (0 : Fin 3) * 8 + 1 * g.val = 8 * t.val + g.val; omega
  | ⟨1, _⟩ => show win0_1.index t (1 : Fin 3) * 64 + 1 * e.val = e.val; omega
  | ⟨2, _⟩ => show win0_1.index t (2 : Fin 3) * 32 + 1 * d.val = d.val; omega

/-- Row r of point t's logit block is row 8192 t + r of the logits. -/
theorem bblk_apply (c : Dev nD) (t : Fin cfg0.N) (r : Fin 8192) (o : Fin 128) :
    bblk m c t (ix2 r o) = barr m c (ix2 (row (pt t) r) o) := by
  obtain ⟨-, -, -, -, -, -, e0, e1, -⟩ := idx_facts t
  show V m c main_arg2 (((cfg0.win 2).blk t).view.emb (ix2 r o)) = V m c main_arg2 (ix2 (row (pt t) r) o)
  refine congrArg _ (funext fun a => Fin.ext ?_)
  match a with
  | ⟨0, _⟩ => show win0_2.index t (0 : Fin 2) * 8192 + 1 * r.val = 8192 * t.val + r.val; omega
  | ⟨1, _⟩ => show win0_2.index t (1 : Fin 2) * 128 + 1 * o.val = o.val; omega

end Cert.KernelIdeal.Carried

end
-- ==== Proof.Final.lean ====
/-
  The region's result array.

  The 2 x 128 x 64 result has one 128 x 64 block per core; block q is written back once, at the
  core's last point 4 q + 3, with what the accumulator holds there.  The two blocks tile the array,
  so after the region the array is, at (q, o, e), what point 4 q + 3 wrote at (0, o, e).
-/
import proofs.«424506_j7670811590780_3_alg».proof.Proof.Blocks

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.Routing ValueIdx

variable {F : FTy → Type} [FloatOps F]
variable (m : (ℓ : Loc nD τ sig) → Buf (Elt F) ℓ)

/-- What the buffers hold after a position depends on the position only. -/
theorem outs_pos (c : Dev nD) (n n' : ℕ) (h : n = n') (hn : n < cfg0.N) (hn' : n' < cfg0.N) :
    outsAt0 m c n hn = outsAt0 m c n' hn' := by
  subst h; rfl

/-- The result array: at (q, o, e), what the last point of core q left in the output block at (0, o, e). -/
def partials (c : Dev nD) : Buf (Elt F) ((c : Thread nD τ).loc main_v1) := fun (i : S2x128x64.Idx) =>
  (outsAt0 m c (4 * (i 0).val + 3)
      (by have h : (i 0).val < 2 := (i 0).isLt; have hN : cfg0.N = 8 := N_0; omega)).1
    (ix3 (0 : Fin 1) (⟨(i 1).val, (i 1).isLt⟩ : Fin 128) (⟨(i 2).val, (i 2).isLt⟩ : Fin 64))

/-- What a core's last point writes back is its block of the result array. -/
theorem flushed_eq (c : Dev nD) (t : Fin cfg0.N) (hf : (cfg0.win 3).flush t = true) :
    (dats m 0 c).flushed 3 t = ((cfg0.win 3).blk t).view.read (Elt F) (partials m c) := by
  have h3 : t.val % 4 = 3 := (flush0_3 t).mp hf
  have hN : cfg0.N = 8 := N_0
  have ht := t.isLt
  obtain ⟨-, -, -, -, -, -, -, -, e0, e1, e2⟩ := idx_facts t
  show (cfg0.win 3).cut (grid0.coords t) ((dats m 0 c).after 3 t) = _
  rw [after0_3]
  funext y
  have hy0 : (y 0).val < 1 := (y 0).isLt
  have hy1 : (y 1).val < 128 := (y 1).isLt
  have hy2 : (y 2).val < 64 := (y 2).isLt
  show (outsAt0 m c t.val t.isLt).1 y = partials m c (((cfg0.win 3).blk t).view.emb y)
  unfold partials
  have hq : 4 * ((((cfg0.win 3).blk t).view.emb y) 0).val + 3 = t.val := by
    show 4 * (win0_3.index t (0 : Fin 3) * 1 + 1 * (y 0).val) + 3 = t.val
    omega
  dsimp only
  rw [outs_pos m c _ _ hq _ t.isLt]
  refine congrArg _ (funext fun a => Fin.ext ?_)
  match a with
  | ⟨0, _⟩ => show (y 0).val = 0; omega
  | ⟨1, _⟩ => show (y 1).val = win0_3.index t (1 : Fin 3) * 128 + 1 * (y 1).val; omega
  | ⟨2, _⟩ => show (y 2).val = win0_3.index t (2 : Fin 3) * 64 + 1 * (y 2).val; omega

/-- Every index of the result array lies in the block of its core's last point. -/
theorem covered (i : S2x128x64.Idx) :
    ∃ t : Fin cfg0.N, (cfg0.win 3).flush t = true ∧ i ∈ ((cfg0.win 3).blk t).view.set := by
  have hN : cfg0.N = 8 := N_0
  have h0 : (i 0).val < 2 := (i 0).isLt
  have h1 : (i 1).val < 128 := (i 1).isLt
  have h2 : (i 2).val < 64 := (i 2).isLt
  obtain ⟨t, ht⟩ : ∃ t : Fin cfg0.N, t.val = 4 * (i 0).val + 3 := ⟨⟨4 * (i 0).val + 3, by omega⟩, rfl⟩
  obtain ⟨-, -, -, -, -, -, -, -, e0, e1, e2⟩ := idx_facts t
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 64 ≤ (i 2).val ∧ (i 2).val < win0_3.index t (2 : Fin 3) * 64 + 64
    omega

/-- So the region leaves the result array at the two cores' sums. -/
theorem final (c : Dev nD) : (dats m 0 c).arrAt 3 cfg0.N = partials m c :=
  (dats m 0 c).arrAt_eq_of_cover 3 (partials m c) (flushed_eq m c) covered

end Cert.KernelIdeal.Carried

end
-- ==== Proof.Payload.lean ====
/-
  The three values the kernel body stores, read at an index, at the ideal instance.

  The first is a block of zeros.  The third is the 128 x 64 accumulator seen as 1 x 128 x 64.
  The second is the accumulator plus the contribution of one grid point.  For the 8192 rows r of
  the point (group r / 1024, position r % 1024) the prediction is
      p(r, e) = sum over d of u(group r, position r, d) * w(group r, e, d),
  the softmax weight of output capsule o is exp (b(r, o) - max over o' of b(r, o')), the row's
  denominator is the sum of these weights, and the value stored at (o, e) is
      acc(o, e) + sum over r of weight(r, o) * (p(r, e) / denominator(r)).
  A change of float format is the identity on extended reals, so the narrowing steps disappear.
-/
import proofs.«424506_j7670811590780_3_alg».proof.Proof.Gen.KernelIdeal.Skeleton
import proofs.«424506_j7670811590780_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Cert.KernelIdeal Cert.KernelIdeal.Gen Cert.Routing Idealize.ShloMosaic Idealize.ShloMosaic.ValueIdx

/-! ## The zero block and the final reshape -/

/-- The block that starts an accumulation is zero everywhere. -/
theorem pay1_apply (o : Fin 128) (e : Fin 64) : k0_pay1 (F := Ideal) (ix2 o e) = 0 := by
  unfold k0_pay1
  rw [shapeCast_self]
  exact Ideal.ofBits_zero_f32

/-- The accumulator with a unit axis in front reads the accumulator. -/
theorem pay3_apply (v : Vec Ideal S128x64 .f32) (o : Fin 128) (e : Fin 64) :
    k0_pay3 (F := Ideal) v (ix3 (0 : Fin 1) o e) = v (ix2 o e) := by
  unfold k0_pay3
  refine shapeCast_apply v shapeCasts_S128x64_S1x128x64 (ix3 (0 : Fin 1) o e) (ix2 o e) ?_
  rw [Shape.rowMajor_val_two, Shape.rowMajor_val_three]
  show o.val * 64 + e.val = (0 * 128 + o.val) * 64 + e.val
  omega
/-! ## The predictions: a batched product, then groups and positions laid out as rows -/

/-- The dimension numbers of the batched product: group by group, positions against output
    coordinates, contracting the 32 input coordinates. -/
abbrev dotP : DotDims S8x1024x32 S8x64x32 S8x1024x64 := dot_S8x1024x32_S8x64x32_S8x1024x64_2_2_1_1_0_0

theorem dotP_lhs0 (i : S8x1024x64.Idx) (q : dotP.contr.Idx) : (dotP.lhsIdx i q 0).val = (i 0).val := by
  unfold DotDims.lhsIdx
  rw [dif_pos (show (0 : Fin S8x1024x32.rank) ∈ dotP.lhsBatch by decide)]
  rfl
theorem dotP_lhs1 (i : S8x1024x64.Idx) (q : dotP.contr.Idx) : (dotP.lhsIdx i q 1).val = (i 1).val := by
  unfold DotDims.lhsIdx
  rw [dif_neg (show ¬(1 : Fin S8x1024x32.rank) ∈ dotP.lhsBatch by decide),
    dif_pos (show (1 : Fin S8x1024x32.rank) ∈ dotP.lhsNonContracting by decide)]
  rfl
theorem dotP_lhs2 (i : S8x1024x64.Idx) (q : dotP.contr.Idx) :
    (dotP.lhsIdx i q 2).val = (q ⟨0, by decide⟩).val :=
  dotP.lhsIdx_val_of_single rfl i q
theorem dotP_rhs0 (i : S8x1024x64.Idx) (q : dotP.contr.Idx) : (dotP.rhsIdx i q 0).val = (i 0).val := by
  unfold DotDims.rhsIdx
  rw [dif_pos (show (0 : Fin S8x64x32.rank) ∈ dotP.rhsBatch by decide)]
  rfl
theorem dotP_rhs1 (i : S8x1024x64.Idx) (q : dotP.contr.Idx) : (dotP.rhsIdx i q 1).val = (i 2).val := by
  unfold DotDims.rhsIdx
  rw [dif_neg (show ¬(1 : Fin S8x64x32.rank) ∈ dotP.rhsBatch by decide),
    dif_pos (show (1 : Fin S8x64x32.rank) ∈ dotP.rhsNonContracting by decide)]
  rfl
theorem dotP_rhs2 (i : S8x1024x64.Idx) (q : dotP.contr.Idx) :
    (dotP.rhsIdx i q 2).val = (q ⟨0, by decide⟩).val :=
  dotP.rhsIdx_val_of_single rfl i q

/-- The batched product at (group, position, output coordinate) is the sum over the 32 input
    coordinates. -/
theorem prod_apply (a : FVec Ideal S8x1024x32 .bf16) (b : FVec Ideal S8x64x32 .bf16)
    (g : Fin 8) (j : Fin 1024) (e : Fin 64) :
    matmul dotP none a b (constant (F := Ideal) S8x1024x64 .f32 0x00000000#32) (ix3 g j e)
      = ∑ d : Fin 32, a (ix3 g j d) * b (ix3 g e d) := by
  refine (Ideal.matmul_constant_zero_apply dotP none a b (ix3 g j e)).trans ?_
  rw [← Equiv.sum_comp (contrEquiv1 dotP 32 rfl rfl).symm]
  refine Finset.sum_congr rfl fun d _ => ?_
  have hd := contrEquiv1_symm_val dotP 32 rfl rfl d
  have el : dotP.lhsIdx (ix3 g j e) ((contrEquiv1 dotP 32 rfl rfl).symm d) = ix3 g j d :=
    funext fun c => Fin.ext (by
      match c with
      | ⟨0, _⟩ => exact dotP_lhs0 _ _
      | ⟨1, _⟩ => exact dotP_lhs1 _ _
      | ⟨2, _⟩ => exact (dotP_lhs2 _ _).trans hd)
  have er : dotP.rhsIdx (ix3 g j e) ((contrEquiv1 dotP 32 rfl rfl).symm d) = ix3 g e d :=
    funext fun c => Fin.ext (by
      match c with
      | ⟨0, _⟩ => exact dotP_rhs0 _ _
      | ⟨1, _⟩ => exact dotP_rhs1 _ _
      | ⟨2, _⟩ => exact (dotP_rhs2 _ _).trans hd)
  rw [el, er]

/-- Row r of the 8192 x 64 layout is position r % 1024 of group r / 1024. -/
theorem rows_apply (x : FVec Ideal S8x1024x64 .f32) (r : Fin 8192) (e : Fin 64) :
    shapeCast S8192x64 x shapeCasts_S8x1024x64_S8192x64 (ix2 r e) = x (ix3 (grp8 r) (pos8 r) e) := by
  refine shapeCast_apply x shapeCasts_S8x1024x64_S8192x64 (ix2 r e) (ix3 (grp8 r) (pos8 r) e) ?_
  rw [Shape.rowMajor_val_three, Shape.rowMajor_val_two]
  show (r.val / 1024 * 1024 + r.val % 1024) * 64 + e.val = r.val * 64 + e.val
  omega
/-! ## The softmax of a row -/

/-- A column of 8192 numbers repeated along 128 columns reads the row's number. -/
theorem col128_apply (x : FVec Ideal S8192 .f32) (r : Fin 8192) (o : Fin 128) :
    broadcastTo S8192x128 (shapeCast S8192x1 x shapeCasts_S8192_S8192x1) broadcasts_S8192x1_S8192x128 (ix2 r o)
      = x (ix1 r) := by
  refine (broadcastTo_apply _ broadcasts_S8192x1_S8192x128 (ix2 r o) (ix2 r (0 : Fin 1)) fun c => ?_).trans ?_
  · match c with
    | ⟨0, _⟩ => show r.val = if (8192 : Nat) = 1 then 0 else r.val; rw [if_neg (by decide)]
    | ⟨1, _⟩ => show 0 = if (1 : Nat) = 1 then 0 else o.val; rw [if_pos rfl]
  · refine shapeCast_apply x shapeCasts_S8192_S8192x1 (ix2 r (0 : Fin 1)) (ix1 r) ?_
    rw [Shape.rowMajor_val_one, Shape.rowMajor_val_two]
    show r.val = r.val * 1 + 0
    omega

/-- The same along 64 columns. -/
theorem col64_apply (x : FVec Ideal S8192 .f32) (r : Fin 8192) (e : Fin 64) :
    broadcastTo S8192x64 (shapeCast S8192x1 x shapeCasts_S8192_S8192x1) broadcasts_S8192x1_S8192x64 (ix2 r e)
      = x (ix1 r) := by
  refine (broadcastTo_apply _ broadcasts_S8192x1_S8192x64 (ix2 r e) (ix2 r (0 : Fin 1)) fun c => ?_).trans ?_
  · match c with
    | ⟨0, _⟩ => show r.val = if (8192 : Nat) = 1 then 0 else r.val; rw [if_neg (by decide)]
    | ⟨1, _⟩ => show 0 = if (1 : Nat) = 1 then 0 else e.val; rw [if_pos rfl]
  · refine shapeCast_apply x shapeCasts_S8192_S8192x1 (ix2 r (0 : Fin 1)) (ix1 r) ?_
    rw [Shape.rowMajor_val_one, Shape.rowMajor_val_two]
    show r.val = r.val * 1 + 0
    omega

/-- Row r of a block of logits. -/
abbrev rowOf (b : FVec Ideal S8192x128 .f32) (r : Fin 8192) : Fin 128 → EReal := fun o => b (ix2 r o)

/-- The maximum along a row, started from the pattern of -oo, is the row's largest logit. -/
theorem max_apply (b : FVec Ideal S8192x128 .f32) (r : Fin 8192) :
    multiReduction .maximumf [1] S8192 b 0xFF800000#32 reduces_S8192x128_S8192 (.inl rfl) rfl (ix1 r)
      = rowMax (rowOf b r) := by
  refine (Ideal.multiReduction_maximumf_single b 0xFF800000#32 reduces_S8192x128_S8192 (.inl rfl) rfl (ix1 r)).trans ?_
  show (Finset.univ : Finset (Fin 128)).fold max (Ideal.ofBits .f32 0xFF800000#32)
      (b ∘ reduces_S8192x128_S8192.lift (ix1 r)) = (Finset.univ : Finset (Fin 128)).fold max ⊥ (rowOf b r)
  have hrow : b ∘ reduces_S8192x128_S8192.lift (ix1 r) = rowOf b r :=
    funext fun o => congrArg b (funext fun c => Fin.ext (by
      match c with
      | ⟨0, _⟩ => rfl
      | ⟨1, _⟩ => rfl))
  rw [ofBits_ninf, hrow]
  rfl

/-- The sum along a row. -/
theorem sum_apply (x : FVec Ideal S8192x128 .f32) (r : Fin 8192) :
    multiReduction .add [1] S8192 x 0x00000000#32 reduces_S8192x128_S8192 (.inl rfl) rfl (ix1 r)
      = ∑ o : Fin 128, x (ix2 r o) := by
  refine (Ideal.multiReduction_add_single x 0x00000000#32 reduces_S8192x128_S8192 (.inl rfl) rfl (ix1 r)).trans ?_
  show ∑ o : Fin 128, x (reduces_S8192x128_S8192.lift (ix1 r) o) = ∑ o : Fin 128, x (ix2 r o)
  refine Finset.sum_congr rfl fun o _ => congrArg x (funext fun c => Fin.ext ?_)
  match c with
  | ⟨0, _⟩ => rfl
  | ⟨1, _⟩ => rfl

/-- The unnormalised weights of a block of logits: the exponential of each logit less its row's
    maximum. -/
def weights (b : FVec Ideal S8192x128 .f32) : FVec Ideal S8192x128 .f32 :=
  exp (subf b (broadcastTo S8192x128
    (shapeCast S8192x1 (multiReduction .maximumf [1] S8192 b 0xFF800000#32 reduces_S8192x128_S8192 (.inl rfl) rfl)
      shapeCasts_S8192_S8192x1) broadcasts_S8192x1_S8192x128))

theorem weights_apply (b : FVec Ideal S8192x128 .f32) (r : Fin 8192) (o : Fin 128) :
    weights b (ix2 r o) = sx (rowOf b r) o := by
  show Ideal.exp (b (ix2 r o) - broadcastTo S8192x128
    (shapeCast S8192x1 (multiReduction .maximumf [1] S8192 b 0xFF800000#32 reduces_S8192x128_S8192 (.inl rfl) rfl)
      shapeCasts_S8192_S8192x1) broadcasts_S8192x1_S8192x128 (ix2 r o)) = Ideal.exp (b (ix2 r o) - rowMax (rowOf b r))
  rw [col128_apply, max_apply]

/-- The row sums of the weights are the softmax denominators. -/
theorem den_apply (b : FVec Ideal S8192x128 .f32) (r : Fin 8192) :
    multiReduction .add [1] S8192 (weights b) 0x00000000#32 reduces_S8192x128_S8192 (.inl rfl) rfl (ix1 r)
      = den (rowOf b r) := by
  refine (sum_apply (weights b) r).trans ?_
  exact Finset.sum_congr rfl fun o _ => weights_apply b r o
/-! ## The sum over the rows -/

/-- The dimension numbers of the second product: weights against scaled predictions, contracting
    the 8192 rows. -/
abbrev dotR : DotDims S8192x128 S8192x64 S128x64 := dot_S8192x128_S8192x64_S128x64_0_0_1_1_n_n

theorem dotR_lhs0 (i : S128x64.Idx) (q : dotR.contr.Idx) : (dotR.lhsIdx i q 0).val = (q ⟨0, by decide⟩).val :=
  dotR.lhsIdx_val_of_single rfl i q
theorem dotR_lhs1 (i : S128x64.Idx) (q : dotR.contr.Idx) : (dotR.lhsIdx i q 1).val = (i 0).val := by
  unfold DotDims.lhsIdx
  rw [dif_neg (show ¬(1 : Fin S8192x128.rank) ∈ dotR.lhsBatch by decide),
    dif_pos (show (1 : Fin S8192x128.rank) ∈ dotR.lhsNonContracting by decide)]
  rfl
theorem dotR_rhs0 (i : S128x64.Idx) (q : dotR.contr.Idx) : (dotR.rhsIdx i q 0).val = (q ⟨0, by decide⟩).val :=
  dotR.rhsIdx_val_of_single rfl i q
theorem dotR_rhs1 (i : S128x64.Idx) (q : dotR.contr.Idx) : (dotR.rhsIdx i q 1).val = (i 1).val := by
  unfold DotDims.rhsIdx
  rw [dif_neg (show ¬(1 : Fin S8192x64.rank) ∈ dotR.rhsBatch by decide),
    dif_pos (show (1 : Fin S8192x64.rank) ∈ dotR.rhsNonContracting by decide)]
  rfl

/-- The second product at (output capsule, output coordinate) is the sum over the 8192 rows. -/
theorem rowsum_apply (a : FVec Ideal S8192x128 .bf16) (b : FVec Ideal S8192x64 .bf16) (o : Fin 128) (e : Fin 64) :
    matmul dotR none a b (constant (F := Ideal) S128x64 .f32 0x00000000#32) (ix2 o e)
      = ∑ r : Fin 8192, a (ix2 r o) * b (ix2 r e) := by
  refine (Ideal.matmul_constant_zero_apply dotR none a b (ix2 o e)).trans ?_
  rw [← Equiv.sum_comp (contrEquiv1 dotR 8192 rfl rfl).symm]
  refine Finset.sum_congr rfl fun r _ => ?_
  have hr := contrEquiv1_symm_val dotR 8192 rfl rfl r
  have el : dotR.lhsIdx (ix2 o e) ((contrEquiv1 dotR 8192 rfl rfl).symm r) = ix2 r o :=
    funext fun c => Fin.ext (by
      match c with
      | ⟨0, _⟩ => exact (dotR_lhs0 _ _).trans hr
      | ⟨1, _⟩ => exact dotR_lhs1 _ _)
  have er : dotR.rhsIdx (ix2 o e) ((contrEquiv1 dotR 8192 rfl rfl).symm r) = ix2 r e :=
    funext fun c => Fin.ext (by
      match c with
      | ⟨0, _⟩ => exact (dotR_rhs0 _ _).trans hr
      | ⟨1, _⟩ => exact dotR_rhs1 _ _)
  rw [el, er]

/-! ## One grid point's contribution -/

/-- The predictions of the point's 8192 rows. -/
def preds (u : Vec Ideal S8x1024x32 .f32) (w : Vec Ideal S8x64x32 .f32) : FVec Ideal S8192x64 .f32 :=
  shapeCast S8192x64
    (matmul dotP none
      (truncf .bf16 (shapeCast S8x1024x32 u shapeCasts_S8x1024x32_S8x1024x32) bitsLt_bf16_f32)
      (truncf .bf16 w bitsLt_bf16_f32) (constant (F := Ideal) S8x1024x64 .f32 0x00000000#32))
    shapeCasts_S8x1024x64_S8192x64

theorem preds_apply (u : Vec Ideal S8x1024x32 .f32) (w : Vec Ideal S8x64x32 .f32) (r : Fin 8192) (e : Fin 64) :
    preds u w (ix2 r e) = ∑ d : Fin 32, u (ix3 (grp8 r) (pos8 r) d) * w (ix3 (grp8 r) e d) := by
  unfold preds
  rw [shapeCast_self]
  refine (rows_apply _ r e).trans ?_
  exact prod_apply _ _ (grp8 r) (pos8 r) e

/-- The predictions divided by their rows' softmax denominators. -/
def scaled (u : Vec Ideal S8x1024x32 .f32) (w : Vec Ideal S8x64x32 .f32) (b : Vec Ideal S8192x128 .f32) :
    FVec Ideal S8192x64 .f32 :=
  divf (preds u w) (broadcastTo S8192x64
    (shapeCast S8192x1 (multiReduction .add [1] S8192 (weights b) 0x00000000#32 reduces_S8192x128_S8192 (.inl rfl) rfl)
      shapeCasts_S8192_S8192x1) broadcasts_S8192x1_S8192x64)

theorem scaled_apply (u : Vec Ideal S8x1024x32 .f32) (w : Vec Ideal S8x64x32 .f32) (b : Vec Ideal S8192x128 .f32)
    (r : Fin 8192) (e : Fin 64) :
    scaled u w b (ix2 r e) = Ideal.div (preds u w (ix2 r e)) (den (rowOf b r)) := by
  show Ideal.div (preds u w (ix2 r e)) (broadcastTo S8192x64
    (shapeCast S8192x1 (multiReduction .add [1] S8192 (weights b) 0x00000000#32 reduces_S8192x128_S8192 (.inl rfl) rfl)
      shapeCasts_S8192_S8192x1) broadcasts_S8192x1_S8192x64 (ix2 r e)) = _
  rw [col64_apply, den_apply]

/-- The stored value is the accumulator plus the second product of the weights and the scaled
    predictions: the body's operations in their order, with the names above. -/
theorem pay2_eq (v3 : Vec Ideal S8x1024x32 .f32) (v6 : Vec Ideal S8x64x32 .f32) (v10 : Vec Ideal S8192x128 .f32)
    (v23 : Vec Ideal S128x64 .f32) :
    k0_pay2 (F := Ideal) v3 v6 v10 v23
      = shapeCast S128x64 (addf v23 (matmul dotR none (truncf .bf16 (weights v10) bitsLt_bf16_f32)
          (truncf .bf16 (scaled v3 v6 v10) bitsLt_bf16_f32) (constant (F := Ideal) S128x64 .f32 0x00000000#32)))
          shapeCasts_S128x64_S128x64 := rfl

/-- The second payload at (o, e): the accumulator plus, over the point's rows, the kernel's form of
    each row's contribution. -/
theorem pay2_apply (v3 : Vec Ideal S8x1024x32 .f32) (v6 : Vec Ideal S8x64x32 .f32) (v10 : Vec Ideal S8192x128 .f32)
    (v23 : Vec Ideal S128x64 .f32) (o : Fin 128) (e : Fin 64) :
    k0_pay2 (F := Ideal) v3 v6 v10 v23 (ix2 o e)
      = v23 (ix2 o e) + ∑ r : Fin 8192, termK (fun o' => v10 (ix2 r o'))
          (∑ d : Fin 32, v3 (ix3 (grp8 r) (pos8 r) d) * v6 (ix3 (grp8 r) e d)) o := by
  rw [pay2_eq, shapeCast_self]
  show v23 (ix2 o e) + matmul dotR none (truncf .bf16 (weights v10) bitsLt_bf16_f32)
      (truncf .bf16 (scaled v3 v6 v10) bitsLt_bf16_f32) (constant (F := Ideal) S128x64 .f32 0x00000000#32) (ix2 o e) = _
  refine congrArg (v23 (ix2 o e) + ·) ?_
  refine (rowsum_apply _ _ o e).trans (Finset.sum_congr rfl fun r _ => ?_)
  show weights v10 (ix2 r o) * scaled v3 v6 v10 (ix2 r e) = _
  rw [weights_apply, scaled_apply, preds_apply]
  rfl

end Cert.KernelIdeal.PayloadValue

end
-- ==== Proof.Tail.lean ====
/-
  What follows the kernel's region: the sum of the two per-core partial arrays and the squash.

  The region leaves a 2 x 128 x 64 array P, one 128 x 64 partial sum per core.  Eighteen host
  operations follow it.  They form s = P(0,.,.) + P(1,.,.), the row norms n(o) = sum over e of
  s(o,e)^2 as a 128 x 1 column, and the result

      (n / (1 + n)) * s * rsqrt (n + eps),

  the column spread along each row.  Here the eighteen operations are ONE function of P (tail), what
  they leave in the result buffer from any contents of the buffers is that function of the contents
  of the region's result (after_tail), and over the extended reals the function read at (o, e) is the
  squash, in its product form, of the sum of the two partial arrays (tail_apply).
-/
import proofs.«424506_j7670811590780_3_alg».proof.Proof.Gen.KernelIdeal.Launch
import proofs.«424506_j7670811590780_3_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.TailValue

open Cert.KernelIdeal Cert.KernelIdeal.Gen Cert.Routing Idealize.ShloMosaic Idealize.ShloMosaic.ValueIdx
open Idealize.ShloMosaic.StableHlo Idealize.ShloMosaic.TcCoe Idealize.SL.Sem

variable {F : FTy → Type} [FloatOps F]

/-! ## The eighteen operations as one function -/

/-- The value the operations after the region compute from the region's result P: with s the sum of
    P over its first axis and n the column of the row sums of s * s, the product
    ((n / (1 + n)) spread * s) * (rsqrt (n + eps)) spread. -/
def tail (P : (⟨S2x128x64, .f32⟩ : BufTy).Contents (Elt F)) : (⟨S128x64, .f32⟩ : BufTy).Contents (Elt F) :=
  mulf
    (mulf
      (broadcastInDim S128x64 ![0, 1] bcast_S128x1_S128x64_0_1
        (Host.divf
          (broadcastInDim S128x1 ![0] bcast_S128_S128x1_0
            (Host.reduceAdd
              (mulf (Host.reduceAdd P (constant S_ .f32 0x00000000#32) reducesTo_S2x128x64_S128x64_d0 h_S_)
                (Host.reduceAdd P (constant S_ .f32 0x00000000#32) reducesTo_S2x128x64_S128x64_d0 h_S_))
              (constant S_ .f32 0x00000000#32) reducesTo_S128x64_S128_d1 h_S_))
          (addf (broadcastInDim S128x1 ![] bcast_S_S128x1 (constant S_ .f32 0x3F800000#32))
            (broadcastInDim S128x1 ![0] bcast_S128_S128x1_0
              (Host.reduceAdd
                (mulf (Host.reduceAdd P (constant S_ .f32 0x00000000#32) reducesTo_S2x128x64_S128x64_d0 h_S_)
                  (Host.reduceAdd P (constant S_ .f32 0x00000000#32) reducesTo_S2x128x64_S128x64_d0 h_S_))
                (constant S_ .f32 0x00000000#32) reducesTo_S128x64_S128_d1 h_S_)))))
      (Host.reduceAdd P (constant S_ .f32 0x00000000#32) reducesTo_S2x128x64_S128x64_d0 h_S_))
    (broadcastInDim S128x64 ![0, 1] bcast_S128x1_S128x64_0_1
      (Host.rsqrt
        (addf
          (broadcastInDim S128x1 ![0] bcast_S128_S128x1_0
            (Host.reduceAdd
              (mulf (Host.reduceAdd P (constant S_ .f32 0x00000000#32) reducesTo_S2x128x64_S128x64_d0 h_S_)
                (Host.reduceAdd P (constant S_ .f32 0x00000000#32) reducesTo_S2x128x64_S128x64_d0 h_S_))
              (constant S_ .f32 0x00000000#32) reducesTo_S128x64_S128_d1 h_S_))
          (broadcastInDim S128x1 ![] bcast_S_S128x1 (constant S_ .f32 0x322BCC77#32)))))

/-- Whatever the buffers hold before them, the eighteen operations leave in the result buffer the
    function tail of what the region's result buffer holds: each operation writes one buffer of its
    own from buffers written earlier in the line or from the region's result, which none of them
    writes. -/
theorem after_tail (V : Valuation τ sig (Elt F)) :
    StableHlo.after (hostOps1 (F := F)) V (Proc.devRef .tc main_v15) = tail (V (Proc.devRef .tc main_v1)) := by
  after_results_simp <;> rfl

/-! ## The operations read at an index, over the extended reals -/

/-- The first sum: over the extended reals the sum of a 2 x 128 x 64 array over its first axis, from
    the initial value 0, is at (o, e) the sum of the array's two entries there. -/
theorem sumCores_apply (P : (⟨S2x128x64, .f32⟩ : BufTy).Contents (Elt Ideal)) (o : Fin 128) (e : Fin 64) :
    Host.reduceAdd (F := Ideal) P (constant S_ .f32 0x00000000#32) reducesTo_S2x128x64_S128x64_d0 h_S_ (ix2 o e)
      = P (ix3 (0 : Fin 2) o e) + P (ix3 (1 : Fin 2) o e) := by
  simp only [Host.reduceAdd, Ideal.hostReduceAdd_def]
  refine (Ideal.hostReduceAdd_single reducesTo_S2x128x64_S128x64_d0 (by decide) P _ (ix2 o e)).trans ?_
  show constant (F := Ideal) S_ .f32 0x00000000#32 (Shape.Idx.first h_S_) + ∑ k : Fin 2, P _ = _
  rw [Fin.sum_univ_two]
  refine (congrArg (· + _) (show constant (F := Ideal) S_ .f32 0x00000000#32 (Shape.Idx.first h_S_) = (0 : EReal) from Ideal.ofBits_zero_f32)).trans ?_
  rw [zero_add]
  exact congrArg₂ (· + ·)
    (congrArg P (funext fun a => Fin.ext (by match a with | ⟨0, _⟩ => rfl | ⟨1, _⟩ => rfl | ⟨2, _⟩ => rfl)))
    (congrArg P (funext fun a => Fin.ext (by match a with | ⟨0, _⟩ => rfl | ⟨1, _⟩ => rfl | ⟨2, _⟩ => rfl)))

/-- The second sum: over the extended reals the sum of a 128 x 64 array over its second axis, from
    the initial value 0, is at o the sum of row o. -/
theorem sumRow_apply (Q : (⟨S128x64, .f32⟩ : BufTy).Contents (Elt Ideal)) (o : Fin 128) :
    Host.reduceAdd (F := Ideal) Q (constant S_ .f32 0x00000000#32) reducesTo_S128x64_S128_d1 h_S_ (ix1 o)
      = ∑ e : Fin 64, Q (ix2 o e) := by
  simp only [Host.reduceAdd, Ideal.hostReduceAdd_def]
  refine (Ideal.hostReduceAdd_single reducesTo_S128x64_S128_d1 (by decide) Q _ (ix1 o)).trans ?_
  show constant (F := Ideal) S_ .f32 0x00000000#32 (Shape.Idx.first h_S_) + ∑ k : Fin 64, Q _ = _
  refine (congrArg (· + _) (show constant (F := Ideal) S_ .f32 0x00000000#32 (Shape.Idx.first h_S_) = (0 : EReal) from Ideal.ofBits_zero_f32)).trans ?_
  rw [zero_add]
  exact Finset.sum_congr rfl fun k _ =>
    congrArg Q (funext fun a => Fin.ext (by match a with | ⟨0, _⟩ => rfl | ⟨1, _⟩ => rfl))

/-- A 128-vector set up as a 128 x 1 column is read at (o, z) at o. -/
theorem column_apply {α : Type} (y : S128.Idx → α) (o : Fin 128) (z : Fin 1) :
    broadcastInDim S128x1 ![0] bcast_S128_S128x1_0 y (ix2 o z) = y (ix1 o) :=
  broadcastInDim_apply _ bcast_S128_S128x1_0 y (ix2 o z) (ix1 o) (fun a => match a with
    | ⟨0, _⟩ => by show o.val = if (128 : Nat) = 1 then 0 else o.val; rw [if_neg (by decide)])

/-- A scalar spread over a 128 x 1 column is read anywhere at its one index. -/
theorem scalar_apply {α : Type} (c : S_.Idx → α) (o : Fin 128) (z : Fin 1) :
    broadcastInDim S128x1 ![] bcast_S_S128x1 c (ix2 o z) = c ix0 :=
  broadcastInDim_apply _ bcast_S_S128x1 c (ix2 o z) ix0 (fun a => a.elim0)

/-- A 128 x 1 column spread along the rows of a 128 x 64 array is read at (o, e) at (o, 0). -/
theorem spread_apply {α : Type} (y : S128x1.Idx → α) (o : Fin 128) (e : Fin 64) :
    broadcastInDim S128x64 ![0, 1] bcast_S128x1_S128x64_0_1 y (ix2 o e) = y (ix2 o (0 : Fin 1)) :=
  broadcastInDim_apply _ bcast_S128x1_S128x64_0_1 y (ix2 o e) (ix2 o (0 : Fin 1)) (fun a => match a with
    | ⟨0, _⟩ => by show o.val = if (128 : Nat) = 1 then 0 else o.val; rw [if_neg (by decide)]
    | ⟨1, _⟩ => by show 0 = if (1 : Nat) = 1 then 0 else e.val; rw [if_pos rfl])

/-- The row norms as the operations form them: the column of the row sums of s * s is read at (o, z)
    as the sum over e of the square of s(o, e). -/
theorem norms_apply (s : (⟨S128x64, .f32⟩ : BufTy).Contents (Elt Ideal)) (o : Fin 128) (z : Fin 1) :
    broadcastInDim S128x1 ![0] bcast_S128_S128x1_0
        (Host.reduceAdd (F := Ideal) (mulf s s) (constant (F := Ideal) S_ .f32 0x00000000#32) reducesTo_S128x64_S128_d1 h_S_) (ix2 o z)
      = ∑ e : Fin 64, s (ix2 o e) * s (ix2 o e) := by
  refine (column_apply _ o z).trans ?_
  exact sumRow_apply (mulf s s : FVec Ideal S128x64 .f32) o

/-! ## The function read at an index -/

/-- Over the extended reals the value of the eighteen operations at (o, e) is the squash, in its
    product form, of the sum of the two partial arrays: with S(o, e) = P(0, o, e) + P(1, o, e) and
    n(o) the sum over e of the square of S(o, e), it is ((n(o) / (1 + n(o))) * S(o, e)) * rsqrt (n(o) + eps),
    the literals 1 and eps being the two bit patterns the operations spread. -/
theorem tail_apply (P : (⟨S2x128x64, .f32⟩ : BufTy).Contents (Elt Ideal)) (o : Fin 128) (e : Fin 64) :
    tail (F := Ideal) P (ix2 o e)
      = squashK (Ideal.ofBits .f32 0x3F800000#32) (Ideal.ofBits .f32 0x322BCC77#32)
          (fun o e => P (ix3 (0 : Fin 2) o e) + P (ix3 (1 : Fin 2) o e)) o e := by
  have hs := sumCores_apply P
  unfold tail
  generalize Host.reduceAdd (F := Ideal) P (constant (F := Ideal) S_ .f32 0x00000000#32) reducesTo_S2x128x64_S128x64_d0 h_S_ = s at hs ⊢
  have hn := norms_apply s
  generalize broadcastInDim S128x1 ![0] bcast_S128_S128x1_0
    (Host.reduceAdd (F := Ideal) (mulf s s) (constant (F := Ideal) S_ .f32 0x00000000#32) reducesTo_S128x64_S128_d1 h_S_) = n at hn ⊢
  have hN : n (ix2 o (0 : Fin 1)) = norm2 (fun o e => P (ix3 (0 : Fin 2) o e) + P (ix3 (1 : Fin 2) o e)) o :=
    (hn o 0).trans (Finset.sum_congr rfl fun e _ => by rw [hs])
  show (broadcastInDim S128x64 ![0, 1] bcast_S128x1_S128x64_0_1
          (Host.divf n (addf (broadcastInDim S128x1 ![] bcast_S_S128x1 (constant (F := Ideal) S_ .f32 0x3F800000#32)) n)) (ix2 o e)
        * s (ix2 o e))
      * broadcastInDim S128x64 ![0, 1] bcast_S128x1_S128x64_0_1
          (Host.rsqrt (addf n (broadcastInDim S128x1 ![] bcast_S_S128x1 (constant (F := Ideal) S_ .f32 0x322BCC77#32)))) (ix2 o e) = _
  rw [spread_apply, spread_apply]
  show (Ideal.div (n (ix2 o 0))
          (broadcastInDim S128x1 ![] bcast_S_S128x1 (constant (F := Ideal) S_ .f32 0x3F800000#32) (ix2 o 0) + n (ix2 o 0))
        * s (ix2 o e))
      * Ideal.rsqrt (n (ix2 o 0) + broadcastInDim S128x1 ![] bcast_S_S128x1 (constant (F := Ideal) S_ .f32 0x322BCC77#32) (ix2 o 0)) = _
  rw [scalar_apply, scalar_apply, hN, hs]
  rfl

end Cert.KernelIdeal.TailValue

end
-- ==== Proof.KernelValue.lean ====
/-
  The kernel's result at an index, over the extended reals.

  Row rho of the 65536 input capsules adds termK (its logits) (its prediction for e) o to entry (o, e).
  Grid point n adds the 8192 rows 8192 n .. 8192 n + 8191; a core's accumulator is zero plus its four
  points' sums in order; the host adds the two cores.  Addition of extended reals is commutative and
  associative, so that is the sum over all rows.  On finite logits each row's term is the reference's
  (termK_eq_termR), and the squash with rsqrt is the squash with sqrt (squashK_eq_squashR).
-/
import proofs.«424506_j7670811590780_3_alg».proof.Proof.Final
import proofs.«424506_j7670811590780_3_alg».proof.Proof.Payload
import proofs.«424506_j7670811590780_3_alg».proof.Proof.Tail
import Mathlib.Algebra.BigOperators.Fin

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.Routing ValueIdx

variable (m : (ℓ : Loc nD τ sig) → Buf (Elt Ideal) ℓ)

/-- What the grid point at position n adds to entry (o, e), from its three blocks. -/
def contrib (c : Dev nD) (n : ℕ) (hn : n < cfg0.N) (o : Fin 128) (e : Fin 64) : EReal :=
  ∑ r : Fin 8192, termK (fun o' => bblk m c ⟨n, hn⟩ (ix2 r o'))
    (∑ d : Fin 32, ublk m c ⟨n, hn⟩ (ix3 (grp8 r) (pos8 r) d) * wblk m c ⟨n, hn⟩ (ix3 (grp8 r) e d)) o

/-- One step of the accumulator, entry by entry. -/
theorem stepAt_apply (c : Dev nD) (n : ℕ) (hn : n < cfg0.N) (xs : Vec Ideal S128x64 .f32) (o : Fin 128) (e : Fin 64) :
    stepAt m c n hn xs (ix2 o e) = xs (ix2 o e) + contrib m c n hn o e := by
  unfold stepAt contrib
  exact PayloadValue.pay2_apply (iblk m c 0 ⟨n, hn⟩) (iblk m c 1 ⟨n, hn⟩) (iblk m c 2 ⟨n, hn⟩) xs o e

/-- What row rho of the whole problem adds to entry (o, e), as the kernel forms it. -/
def rowK (c : Dev nD) (o : Fin 128) (e : Fin 64) (ρ : Fin 65536) : EReal :=
  termK (fun o' => barr m c (ix2 ρ o'))
    (∑ d : Fin 32, uarr m c (ix3 (grp64 ρ) (pos64 ρ) d) * warr m c (ix3 (grp64 ρ) e d)) o

/-- A grid point's contribution is the sum of its 8192 rows' terms. -/
theorem contrib_eq (c : Dev nD) (n : ℕ) (hn : n < cfg0.N) (k : Fin 8) (hk : k.val = n) (o : Fin 128) (e : Fin 64) :
    contrib m c n hn o e = ∑ r : Fin 8192, rowK m c o e (row k r) := by
  have hpt : pt ⟨n, hn⟩ = k := Fin.ext hk.symm
  unfold contrib rowK
  refine Finset.sum_congr rfl fun r _ => ?_
  rw [grp64_row, pos64_row]
  have hb : (fun o' => bblk m c ⟨n, hn⟩ (ix2 r o')) = fun o' => barr m c (ix2 (row k r) o') :=
    funext fun o' => by rw [bblk_apply, hpt]
  have hp : (∑ d : Fin 32, ublk m c ⟨n, hn⟩ (ix3 (grp8 r) (pos8 r) d) * wblk m c ⟨n, hn⟩ (ix3 (grp8 r) e d))
      = ∑ d : Fin 32, uarr m c (ix3 (grpOf k (grp8 r)) (pos8 r) d) * warr m c (ix3 (grpOf k (grp8 r)) e d) :=
    Finset.sum_congr rfl fun d _ => by rw [ublk_apply, wblk_apply, hpt]
  rw [hb, hp]

/-- Block q of the result array, entry by entry: zero plus the four contributions of core q. -/
theorem partials_apply (c : Dev nD) (q : Fin 2) (o : Fin 128) (e : Fin 64) :
    partials m c (ix3 q o e)
      = 0 + contrib m c (4 * q.val) (by have := q.isLt; have hN : cfg0.N = 8 := N_0; omega) o e
          + contrib m c (4 * q.val + 1) (by have := q.isLt; have hN : cfg0.N = 8 := N_0; omega) o e
          + contrib m c (4 * q.val + 2) (by have := q.isLt; have hN : cfg0.N = 8 := N_0; omega) o e
          + contrib m c (4 * q.val + 3) (by have := q.isLt; have hN : cfg0.N = 8 := N_0; omega) o e := by
  have hq := q.isLt
  have hN : cfg0.N = 8 := N_0
  show (outsAt0 m c (4 * q.val + 3) _).1 (ix3 (0 : Fin 1) o e) = _
  rw [out_core m c (4 * q.val) (by omega) (by omega), PayloadValue.pay3_apply, stepAt_apply, stepAt_apply,
    stepAt_apply, stepAt_apply, PayloadValue.pay1_apply]

/-- The result array at its literal shape. -/
abbrev parr (c : Dev nD) : Vec Ideal S2x128x64 .f32 := partials m c

/-- The two blocks added: the sum over every row. -/
theorem routed_eq (c : Dev nD) (o : Fin 128) (e : Fin 64) :
    parr m c (ix3 (0 : Fin 2) o e) + parr m c (ix3 (1 : Fin 2) o e) = ∑ ρ : Fin 65536, rowK m c o e ρ := by
  unfold parr
  rw [partials_apply, partials_apply, sum_rows, Fin.sum_univ_eight]
  rw [contrib_eq m c (4 * (0 : Fin 2).val) _ 0 rfl, contrib_eq m c (4 * (0 : Fin 2).val + 1) _ 1 rfl,
    contrib_eq m c (4 * (0 : Fin 2).val + 2) _ 2 rfl, contrib_eq m c (4 * (0 : Fin 2).val + 3) _ 3 rfl,
    contrib_eq m c (4 * (1 : Fin 2).val) _ 4 rfl, contrib_eq m c (4 * (1 : Fin 2).val + 1) _ 5 rfl,
    contrib_eq m c (4 * (1 : Fin 2).val + 2) _ 6 rfl, contrib_eq m c (4 * (1 : Fin 2).val + 3) _ 7 rfl]
  simp only [zero_add, add_assoc]

/-- The kernel's result entry, in the reference's form, when no logit is an infinity. -/
theorem kernel_apply (c : Dev nD) (hfin : ∀ (ρ : Fin 65536) (o : Fin 128), barr m c (ix2 ρ o) ≠ ⊥ ∧ barr m c (ix2 ρ o) ≠ ⊤)
    (o : Fin 128) (e : Fin 64) :
    TailValue.tail (F := Ideal) (partials m c) (ix2 o e)
      = squashR (Ideal.ofBits .f32 0x3F800000#32) (Ideal.ofBits .f32 0x322BCC77#32)
          (fun o e => ∑ ρ : Fin 65536, termR (fun o' => barr m c (ix2 ρ o'))
            (∑ d : Fin 32, uarr m c (ix3 (grp64 ρ) (pos64 ρ) d) * warr m c (ix3 (grp64 ρ) e d)) o) o e := by
  rw [TailValue.tail_apply, squashK_eq_squashR _ _ ofBits_eps_pos]
  refine congrArg (fun S => squashR _ _ S o e) (funext fun o => funext fun e => ?_)
  refine (routed_eq m c o e).trans ?_
  exact Finset.sum_congr rfl fun ρ _ => termK_eq_termR _ (fun o' => hfin ρ o') _ _

end Cert.KernelIdeal.Carried

end
-- ==== Proof.KernelRun.lean ====
/-
  The kernel's run with its result named.

  After the region the 18 host operations turn the result array into the program's result; so every
  execution ends with the result buffer at the tail function of the two cores' sums, and with the three
  argument arrays as they were.
-/
import proofs.«424506_j7670811590780_3_alg».proof.Proof.Final
import proofs.«424506_j7670811590780_3_alg».proof.Proof.Tail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ) (ρ : Dev nD → PrngReg)

/-- The one host operation before the region reshapes the input to 64 x 1024 x 32: that is what the
    region finds in its first window's array. -/
theorem entry_reshape (c : Dev nD) :
    (V m c main_v0 : S64x1024x32.Idx → Elt F .f32)
      = shapeCast S64x1024x32 (m ((c : Thread nD τ).loc main_arg0)) shapeCasts_S1x2048x32x32_S64x1024x32 := by
  show StableHlo.after hostOps0 (fun b => m (c, b)) (Proc.devRef .tc main_v0) = _
  after_results
  rfl

/-- What the host operations after the region leave in the result buffer. -/
theorem result_eq (c : Dev nD) :
    Pipeline.afterTail₀ cfgs (dats m) 0 (V0 m) [hostOps1] c main_v15 = TailValue.tail (partials m c) := by
  unfold Pipeline.afterTail₀
  show StableHlo.after hostOps1 _ (Proc.devRef .tc main_v15) = _
  refine (TailValue.after_tail _).trans ?_
  exact congrArg TailValue.tail ((Pipeline.withArrays_arr spec0 launch0.win.arr_inj c _ _ 3).trans (final m c))

/-- Every execution ends with the result at the tail of the cores' sums and the arguments unchanged. -/
theorem run : θ_run defs (onTc (τ := τ) (main (F := F))) ⟨m, fun _ => 0, ρ⟩ fun r => ∀ c : Dev nD,
      r.2.mem ((c.tc : Thread nD τ).loc main_v15) = TailValue.tail (partials m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v15 (Pipeline.mem_restRefs_of main_v15 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Carried

end
-- ==== Proof.RefValue.lean ====
/-
  The reference's result, read at one index as extended reals.

  The reference regroups x into 64 groups of 1024 positions of 32 numbers, multiplies each position
  by its group's 64 x 32 matrix (the prediction of row r = 1024 g + p for output coordinate e is the
  sum over d of x(g, p, d) * W(g, e, d)), takes the softmax of every row of the logits b over the
  128 output capsules, sums over the 65536 rows the softmax weight times the prediction, and
  squashes the 128 x 64 result row by row.

  Each stage is read at explicit coordinates: row r of the logits is the function
  o' |-> b(r, o'), its maximum is the fold of max from -oo, its weights are exp (b - max) over their
  sum, and what is contracted over r is (weight / sum) * prediction, the reference's order of the
  two operations.
-/
import proofs.«424506_j7670811590780_3_alg».proof.Proof.Gen.ReferenceIdeal.Read
import proofs.«424506_j7670811590780_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Routing
open Idealize.ShloMosaic Idealize.ShloMosaic.ValueIdx

/-- The logits as they are typed in the program -/
abbrev Logits : Type := (⟨S65536x128, .f32⟩ : BufTy).Contents (Elt Ideal)
/-- the input capsules -/
abbrev Caps : Type := (⟨S1x2048x32x32, .f32⟩ : BufTy).Contents (Elt Ideal)
/-- and the matrices. -/
abbrev Mats : Type := (⟨S64x64x32, .f32⟩ : BufTy).Contents (Elt Ideal)

/-- Row r of the logits as a function of the output capsule. -/
abbrev rowOf (x2 : Logits) (r : Fin 65536) : Fin 128 → EReal := fun o' => x2 (ix2 r o')

/-! ## The softmax of one row -/

/-- The reduce of the maximum over the 128 logits of row r, started from the pattern of -oo, is the
    row's maximum: a fold of a commutative and associative operation over the coordinates of the
    dropped axis, the index (r, k) being r with k inserted on axis 1. -/
theorem rowmax_apply (x2 : Logits) (r : Fin 65536) :
    val_main_v3 (F := Ideal) x2 (ix1 r) = rowMax (rowOf x2 r) := by
  have hR : S65536x128.Reduces [(1 : Fin S65536x128.rank)] S65536 := by decide
  unfold val_main_v3 rowMax
  refine (Host.reduce_eq_fold_single (FloatOps.maximumf (F := Ideal) (φ := .f32)) x2 (val_main_cst (F := Ideal))
    reducesTo_S65536x128_S65536_d1 hR h_S_ (ix1 r)).trans ?_
  have hinit : val_main_cst (F := Ideal) (Shape.Idx.first h_S_) = (⊥ : EReal) := ofBits_ninf
  have hrow : (x2 ∘ hR.lift (ix1 r)) = rowOf x2 r :=
    funext fun k => congrArg x2 (funext fun a => Fin.ext (by
      match a with
      | ⟨0, _⟩ => rfl
      | ⟨1, _⟩ => rfl))
  rw [hinit, hrow]
  rfl

/-- The maximum broadcast back over the row: at (r, o) the two broadcasts read the vector of
    maxima at r, and the maximum with -oo changes nothing. -/
theorem rowmax_bcast_apply (x2 : Logits) (r : Fin 65536) (o : Fin 128) :
    val_main_v7 (F := Ideal) x2 (ix2 r o) = rowMax (rowOf x2 r) := by
  have hidx : idx_main_v6 (idx_main_v7 (ix2 r o)) = ix1 r :=
    funext fun a => Fin.ext (by match a with | ⟨0, _⟩ => rfl)
  refine (val_main_v7_apply x2 (ix2 r o)).trans ?_
  refine (val_main_v6_apply x2 (idx_main_v7 (ix2 r o))).trans ?_
  rw [hidx]
  refine (val_main_v5_apply x2 (ix1 r)).trans ?_
  have hbot : val_main_v4 (F := Ideal) (ix1 r) = (⊥ : EReal) :=
    (val_main_v4_apply (F := Ideal) (ix1 r)).trans ofBits_ninf
  rw [hbot, rowmax_apply]
  exact max_eq_right bot_le

/-- The unnormalised weight: the exponential of the logit less the row's maximum. -/
theorem weight_apply (x2 : Logits) (r : Fin 65536) (o : Fin 128) :
    val_main_v9 (F := Ideal) x2 (ix2 r o) = sx (rowOf x2 r) o := by
  show Ideal.exp (x2 (ix2 r o) - val_main_v7 (F := Ideal) x2 (ix2 r o)) = sx (rowOf x2 r) o
  rw [rowmax_bcast_apply]
  rfl

/-- The row's sum of weights; the sum starts from the literal zero. -/
theorem den_apply (x2 : Logits) (r : Fin 65536) :
    val_main_v10 (F := Ideal) x2 (ix1 r) = den (rowOf x2 r) := by
  refine (val_main_v10_apply x2 (ix1 r)).trans ?_
  have hz : val_main_cst_1 (F := Ideal) (Shape.Idx.first h_S_) = (0 : EReal) := Ideal.ofBits_zero_f32
  rw [hz, zero_add]
  unfold den
  refine Finset.sum_congr rfl fun k _ => ?_
  have hidx : idx_main_v10 (ix1 r) k = ix2 r k :=
    funext fun a => Fin.ext (by match a with | ⟨0, _⟩ => rfl | ⟨1, _⟩ => rfl)
  rw [hidx]
  exact weight_apply x2 r k

/-- The denominator broadcast back over the row. -/
theorem den_bcast_apply (x2 : Logits) (r : Fin 65536) (o : Fin 128) :
    val_main_v12 (F := Ideal) x2 (ix2 r o) = den (rowOf x2 r) := by
  have hidx : idx_main_v11 (idx_main_v12 (ix2 r o)) = ix1 r :=
    funext fun a => Fin.ext (by match a with | ⟨0, _⟩ => rfl)
  refine (val_main_v12_apply x2 (ix2 r o)).trans ?_
  refine (val_main_v11_apply x2 (idx_main_v12 (ix2 r o))).trans ?_
  rw [hidx]
  exact den_apply x2 r

/-- The softmax weight of output capsule o in row r. -/
theorem softmax_apply (x2 : Logits) (r : Fin 65536) (o : Fin 128) :
    val_main_v13 (F := Ideal) x2 (ix2 r o) = Ideal.div (sx (rowOf x2 r) o) (den (rowOf x2 r)) := by
  refine (val_main_v13_apply x2 (ix2 r o)).trans ?_
  rw [weight_apply, den_bcast_apply]
  rfl

/-! ## The prediction of one row -/

/-- The prediction of row r for output coordinate e as the program spells it: x regrouped, at the
    row's group and position, against the group's matrix. -/
abbrev predOf (x0 : Caps) (x1 : Mats) (r : Fin 65536) (e : Fin 64) : EReal :=
  ∑ d : Fin 32, val_main_v0 (F := Ideal) x0 (ix3 (grp64 r) (pos64 r) d) * x1 (ix3 (grp64 r) e d)

/-- The per-group product at (g, p, e): the contraction over the last axis of both operands. -/
theorem group_product_apply (x0 : Caps) (x1 : Mats) (g : Fin 64) (p : Fin 1024) (e : Fin 64) :
    val_main_v1 (F := Ideal) x0 x1 (ix3 g p e)
      = ∑ d : Fin 32, val_main_v0 (F := Ideal) x0 (ix3 g p d) * x1 (ix3 g e d) := by
  refine (val_main_v1_apply x0 x1 (ix3 g p e)).trans ?_
  refine Finset.sum_congr rfl fun d _ => ?_
  have hl : lidx_main_v1 (ix3 g p e) d = ix3 g p d :=
    funext fun a => Fin.ext (by match a with | ⟨0, _⟩ => rfl | ⟨1, _⟩ => rfl | ⟨2, _⟩ => rfl)
  have hr : ridx_main_v1 (ix3 g p e) d = ix3 g e d :=
    funext fun a => Fin.ext (by match a with | ⟨0, _⟩ => rfl | ⟨1, _⟩ => rfl | ⟨2, _⟩ => rfl)
  rw [hl, hr]

/-- Flattening the groups: entry (r, e) of the 65536 x 64 array is entry (r / 1024, r % 1024, e) of
    the 64 x 1024 x 64 one, because 64 r + e is 64 (1024 g + p) + e. -/
theorem prediction_apply (x0 : Caps) (x1 : Mats) (r : Fin 65536) (e : Fin 64) :
    val_main_v2 (F := Ideal) x0 x1 (ix2 r e) = predOf x0 x1 r e := by
  refine (val_main_v2_apply x0 x1 (ix2 r e)).trans ?_
  have hidx : idx_main_v2 (ix2 r e) = ix3 (grp64 r) (pos64 r) e :=
    funext fun a => Fin.ext (by
      have hr : r.val < 65536 := r.isLt
      have he : e.val < 64 := e.isLt
      match a with
      | ⟨0, _⟩ => show (r.val * 64 + e.val) / 65536 = r.val / 1024; omega
      | ⟨1, _⟩ => show (r.val * 64 + e.val) / 64 % 1024 = r.val % 1024; omega
      | ⟨2, _⟩ => show (r.val * 64 + e.val) % 64 = e.val; omega)
  rw [hidx]
  exact group_product_apply x0 x1 (grp64 r) (pos64 r) e

/-! ## The contraction over the rows -/

/-- The transposed softmax at (o, r) is the softmax at (r, o). -/
theorem softmax_transposed_apply (x2 : Logits) (o : Fin 128) (r : Fin 65536) :
    val_main_v14 (F := Ideal) x2 (ix2 o r) = Ideal.div (sx (rowOf x2 r) o) (den (rowOf x2 r)) := by
  refine (val_main_v14_apply x2 (ix2 o r)).trans ?_
  have hidx : idx_main_v14 (ix2 o r) = ix2 r o :=
    funext fun a => Fin.ext (by match a with | ⟨0, _⟩ => rfl | ⟨1, _⟩ => rfl)
  rw [hidx]
  exact softmax_apply x2 r o

/-- Output capsule o, coordinate e, before the squash: the sum over all rows of the row's softmax
    weight for o times the row's prediction for e, the quotient taken first. -/
theorem routed_apply (x0 : Caps) (x1 : Mats) (x2 : Logits) (o : Fin 128) (e : Fin 64) :
    val_main_v15 (F := Ideal) x0 x1 x2 (ix2 o e)
      = ∑ r : Fin 65536, termR (rowOf x2 r) (predOf x0 x1 r e) o := by
  refine (val_main_v15_apply x0 x1 x2 (ix2 o e)).trans ?_
  refine Finset.sum_congr rfl fun r _ => ?_
  have hl : lidx_main_v15 (ix2 o e) r = ix2 o r :=
    funext fun a => Fin.ext (by match a with | ⟨0, _⟩ => rfl | ⟨1, _⟩ => rfl)
  have hr : ridx_main_v15 (ix2 o e) r = ix2 r e :=
    funext fun a => Fin.ext (by match a with | ⟨0, _⟩ => rfl | ⟨1, _⟩ => rfl)
  rw [hl, hr, softmax_transposed_apply, prediction_apply]
  rfl

/-! ## The squash -/

/-- The 128 x 64 array the squash is applied to. -/
abbrev routed (x0 : Caps) (x1 : Mats) (x2 : Logits) : Fin 128 → Fin 64 → EReal :=
  fun o e => val_main_v15 (F := Ideal) x0 x1 x2 (ix2 o e)

/-- The sum of the squares of row o; the sum starts from the literal zero. -/
theorem norm_apply (x0 : Caps) (x1 : Mats) (x2 : Logits) (o : Fin 128) :
    val_main_v17 (F := Ideal) x0 x1 x2 (ix1 o) = norm2 (routed x0 x1 x2) o := by
  refine (val_main_v17_apply x0 x1 x2 (ix1 o)).trans ?_
  have hz : val_main_cst_2 (F := Ideal) (Shape.Idx.first h_S_) = (0 : EReal) := Ideal.ofBits_zero_f32
  rw [hz, zero_add]
  unfold norm2
  refine Finset.sum_congr rfl fun k _ => ?_
  have hidx : idx_main_v17 (ix1 o) k = ix2 o k :=
    funext fun a => Fin.ext (by match a with | ⟨0, _⟩ => rfl | ⟨1, _⟩ => rfl)
  rw [hidx]
  exact val_main_v16_apply x0 x1 x2 (ix2 o k)

/-- The same as a column of one entry per row. -/
theorem norm_col_apply (x0 : Caps) (x1 : Mats) (x2 : Logits) (o : Fin 128) (z : Fin 1) :
    val_main_v18 (F := Ideal) x0 x1 x2 (ix2 o z) = norm2 (routed x0 x1 x2) o := by
  refine (val_main_v18_apply x0 x1 x2 (ix2 o z)).trans ?_
  have hidx : idx_main_v18 (ix2 o z) = ix1 o :=
    funext fun a => Fin.ext (by match a with | ⟨0, _⟩ => rfl)
  rw [hidx]
  exact norm_apply x0 x1 x2 o

/-- The broadcast literal one -/
theorem one_apply (i : S128x1.Idx) : val_main_v19 (F := Ideal) i = Ideal.ofBits .f32 0x3F800000#32 :=
  (val_main_v19_apply (F := Ideal) i).trans (val_main_cst_3_apply (F := Ideal) _)

/-- and the broadcast literal eps. -/
theorem eps_apply (i : S128x1.Idx) : val_main_v24 (F := Ideal) i = Ideal.ofBits .f32 0x322BCC77#32 :=
  (val_main_v24_apply (F := Ideal) i).trans (val_main_cst_4_apply (F := Ideal) _)

/-- The factor n / (1 + n) of row o. -/
theorem scale_apply (x0 : Caps) (x1 : Mats) (x2 : Logits) (o : Fin 128) (z : Fin 1) :
    val_main_v21 (F := Ideal) x0 x1 x2 (ix2 o z)
      = Ideal.div (norm2 (routed x0 x1 x2) o) (Ideal.ofBits .f32 0x3F800000#32 + norm2 (routed x0 x1 x2) o) := by
  refine (val_main_v21_apply x0 x1 x2 (ix2 o z)).trans ?_
  rw [val_main_v20_apply, norm_col_apply, one_apply]
  rfl

/-- The root of n + eps of row o. -/
theorem root_apply (x0 : Caps) (x1 : Mats) (x2 : Logits) (o : Fin 128) (z : Fin 1) :
    val_main_v26 (F := Ideal) x0 x1 x2 (ix2 o z)
      = Ideal.sqrt (norm2 (routed x0 x1 x2) o + Ideal.ofBits .f32 0x322BCC77#32) := by
  refine (val_main_v26_apply x0 x1 x2 (ix2 o z)).trans ?_
  rw [val_main_v25_apply, norm_col_apply, eps_apply]
  exact (Ideal.hostUnary_sqrt_def _).trans (congrArg Ideal.sqrt (Ideal.addf_def _ _))

/-- The squashed array at (o, e): the factor times the entry, over the root. -/
theorem squash_apply (x0 : Caps) (x1 : Mats) (x2 : Logits) (o : Fin 128) (e : Fin 64) :
    val_main_v28 (F := Ideal) x0 x1 x2 (ix2 o e)
      = squashR (Ideal.ofBits .f32 0x3F800000#32) (Ideal.ofBits .f32 0x322BCC77#32) (routed x0 x1 x2) o e := by
  have hcol : idx_main_v22 (ix2 o e) = ix2 o (0 : Fin 1) :=
    funext fun a => Fin.ext (by match a with | ⟨0, _⟩ => rfl | ⟨1, _⟩ => rfl)
  have hcol' : idx_main_v27 (ix2 o e) = ix2 o (0 : Fin 1) :=
    funext fun a => Fin.ext (by match a with | ⟨0, _⟩ => rfl | ⟨1, _⟩ => rfl)
  have hnum : val_main_v23 (F := Ideal) x0 x1 x2 (ix2 o e)
      = Ideal.div (norm2 (routed x0 x1 x2) o) (Ideal.ofBits .f32 0x3F800000#32 + norm2 (routed x0 x1 x2) o)
          * routed x0 x1 x2 o e := by
    refine (val_main_v23_apply x0 x1 x2 (ix2 o e)).trans ?_
    rw [val_main_v22_apply, hcol, scale_apply]
    rfl
  have hden : val_main_v27 (F := Ideal) x0 x1 x2 (ix2 o e)
      = Ideal.sqrt (norm2 (routed x0 x1 x2) o + Ideal.ofBits .f32 0x322BCC77#32) := by
    refine (val_main_v27_apply x0 x1 x2 (ix2 o e)).trans ?_
    rw [hcol']
    exact root_apply x0 x1 x2 o 0
  refine (val_main_v28_apply x0 x1 x2 (ix2 o e)).trans ?_
  rw [hnum, hden]
  rfl

/-! ## The result -/

/-- The reference's result at (o, e): the squash of the array whose (o, e) entry is the sum over the
    65536 rows of (weight / denominator) * prediction. -/
theorem ref_apply (x0 : (⟨S1x2048x32x32, .f32⟩ : BufTy).Contents (Elt Ideal)) (x1 : (⟨S64x64x32, .f32⟩ : BufTy).Contents (Elt Ideal)) (x2 : (⟨S65536x128, .f32⟩ : BufTy).Contents (Elt Ideal)) (o : Fin 128) (e : Fin 64) :
    val_main_v28 (F := Ideal) x0 x1 x2 (ix2 o e)
      = squashR (Ideal.ofBits .f32 0x3F800000#32) (Ideal.ofBits .f32 0x322BCC77#32)
          (fun o e => ∑ r : Fin 65536, termR (fun o' => x2 (ix2 r o')) (∑ d : Fin 32, val_main_v0 (F := Ideal) x0 (ix3 (grp64 r) (pos64 r) d) * x1 (ix3 (grp64 r) e d)) o) o e := by
  have hS : routed x0 x1 x2
      = fun o e => ∑ r : Fin 65536, termR (fun o' => x2 (ix2 r o')) (∑ d : Fin 32, val_main_v0 (F := Ideal) x0 (ix3 (grp64 r) (pos64 r) d) * x1 (ix3 (grp64 r) e d)) o :=
    funext fun o => funext fun e => routed_apply x0 x1 x2 o e
  rw [← hS]
  exact squash_apply x0 x1 x2 o e

end Cert.ReferenceIdeal.RefValue

end
-- ==== Proof.Finite.lean ====
/-
  The precondition, read back for the logits.

  The precondition is the conjunction of three tests, one per input: every entry's absolute value is
  below +oo.  For the logits this says that no entry is an infinity, which is what keeps every softmax
  denominator away from zero.
-/
import proofs.«424506_j7670811590780_3_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Routing

open Idealize.ShloMosaic Cert.Pre_finite_inputs

instance : Subsingleton Cert.Pre_finite_inputs.S_.Idx := ⟨fun a b => funext fun d => d.elim0⟩

/-- The pattern of +oo. -/
theorem ofBits_pinf : Ideal.ofBits .f32 0x7F800000#32 = ⊤ := by simp [Ideal.ofBits, Ideal.ieee]

/-- An extended real whose absolute value is below +oo is neither infinity. -/
theorem ne_inf_of_abs_lt_top (x : EReal) (h : max x (-x) < ⊤) : x ≠ ⊥ ∧ x ≠ ⊤ := by
  constructor
  · rintro rfl; simp at h
  · rintro rfl; simp at h

/-- Under the precondition no logit is an infinity. -/
theorem logits_finite [Cert.Pre_finite_inputs.Facts] (a0 : FVec Ideal S1x2048x32x32 .f32) (a1 : FVec Ideal S64x64x32 .f32)
    (a2 : FVec Ideal S65536x128 .f32) (h : Cert.Pre_finite_inputs.fn (F := Ideal) a0 a1 a2 = fun _ => 1#1)
    (i : S65536x128.Idx) : a2 i ≠ ⊥ ∧ a2 i ≠ ⊤ := by
  have h0 := congrFun h ValueIdx.ix0
  dsimp only [Cert.Pre_finite_inputs.fn] at h0
  obtain ⟨-, h2⟩ := IntOp.andi_eq_one.1 h0
  have hi := Host.reduce_andi_all _ _ _ _ _ h2 i
  have hb : (broadcastInDim S65536x128 ![] Facts.bcast_S_S65536x128 (constant (F := Ideal) S_ .f32 0x7F800000#32)) i = ⊤ := by
    rw [broadcastInDim_apply _ _ _ i ValueIdx.ix0 (fun a => a.elim0)]
    exact ofBits_pinf
  have hc : Ideal.cmp .olt (max (a2 i) (-(a2 i))) ⊤ = 1#1 := by
    rw [← hb]; exact hi
  refine ne_inf_of_abs_lt_top _ ?_
  by_contra hn
  have hz : Ideal.cmp .olt (max (a2 i) (-(a2 i))) ⊤ = 0#1 := by
    unfold Ideal.cmp
    rw [decide_eq_false hn]
    rfl
  rw [hz] at hc
  exact absurd hc (by decide)

end Cert.Routing

end
-- ==== Proof.lean ====
/-
  Routing by agreement, one pass: a tiled kernel against its whole-array reference, over the extended reals.

  Both programs reshape the input to 64 groups of 1024 capsules, predict p(r, e) for each of the 65536
  capsules r by its group's 64 x 32 weights, weigh the predictions by the row softmax of the logits
  b(r, .), sum over r into a 128 x 64 array s, and squash each row of s.

  The kernel walks a 2 x 4 grid, 8 groups (8192 capsules) to a point.  At a point it forms, for each
  capsule, exp (b - max b) and its row sum d, divides the prediction by d, and contracts over the 8192
  capsules; a scratch accumulator, zeroed at each core's first point, collects the four points of a
  core and is written out at the core's last point; the host adds the two cores and squashes with a
  product by rsqrt (n + eps).  The reference divides the weights by d instead, contracts over all
  65536 capsules at once, and squashes with a quotient by sqrt (n + eps).

  Over the extended reals (every float operation exact, a change of float format the identity):
    * division by a nonzero d is multiplication by its inverse, so the two placements of the division
      give one product as soon as d is not zero, and d is not zero because the precondition keeps the
      logits finite (Spec.lean, Finite.lean);
    * addition is commutative and associative, so zero plus four points of 8192 capsules, twice,
      added, is the sum over the 65536 capsules (Spec.lean sum_rows, KernelValue.lean);
    * a product by rsqrt y is the quotient by sqrt y at every positive y, +oo included, and n + eps
      is positive: n is a sum of squares and eps a positive literal (Algebra.lean).
  The kernel's side is read off its generated frame run: the pieces each control case leaves
  (Pieces.lean), the accumulator from point to point (Chain.lean), the blocks a point stages
  (Blocks.lean), the result array from the two write-backs (Final.lean), the host operations after the
  region (Tail.lean, KernelRun.lean), the body's arithmetic at an index (Payload.lean).  The
  reference's side is its generated run read operation by operation (RefValue.lean).  The idealized
  kernel is the kernel's own text read over the extended reals, so the claim that it is the kernel's
  idealization has no conjunct to show.
-/
import proofs.«424506_j7670811590780_3_alg».proof.Defs
import proofs.«424506_j7670811590780_3_alg».proof.Proof.Gen.Kernel
import proofs.«424506_j7670811590780_3_alg».proof.Proof.Gen.Kernel.Skeleton
import proofs.«424506_j7670811590780_3_alg».proof.Proof.Gen.Kernel.Launch
import proofs.«424506_j7670811590780_3_alg».proof.Proof.Gen.Kernel.Points
import proofs.«424506_j7670811590780_3_alg».proof.Proof.Gen.Kernel.Frame
import proofs.«424506_j7670811590780_3_alg».proof.Proof.Gen.KernelIdeal
import proofs.«424506_j7670811590780_3_alg».proof.Proof.Gen.KernelIdeal.Skeleton
import proofs.«424506_j7670811590780_3_alg».proof.Proof.Gen.KernelIdeal.Launch
import proofs.«424506_j7670811590780_3_alg».proof.Proof.Gen.KernelIdeal.Points
import proofs.«424506_j7670811590780_3_alg».proof.Proof.Gen.KernelIdeal.Frame
import proofs.«424506_j7670811590780_3_alg».proof.Proof.Gen.ReferenceIdeal
import proofs.«424506_j7670811590780_3_alg».proof.Proof.Gen.Pre_finite_inputs
import proofs.«424506_j7670811590780_3_alg».proof.Proof.Gen.ReferenceIdeal.Run
import proofs.«424506_j7670811590780_3_alg».proof.Proof.Gen.ReferenceIdeal.Read
import proofs.«424506_j7670811590780_3_alg».proof.Proof.KernelValue
import proofs.«424506_j7670811590780_3_alg».proof.Proof.KernelRun
import proofs.«424506_j7670811590780_3_alg».proof.Proof.RefValue
import proofs.«424506_j7670811590780_3_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx Cert.Routing

/-- The word-level kernel runs and keeps its arguments: its generated frame. -/
theorem frame_k : Cert.frame_Kernel := fun m ρ _ => Cert.Kernel.Gen.frame m ρ

/-- The same at the extended reals. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments both programs end with the same 128 x 64 result: entry
    (o, e) of either is the squash, in the quotient form, of the sum over all capsules of the
    reference's term; the kernel's entry gets there by the three laws above. -/
theorem algebraic : Cert.algebraic_KernelIdeal_ReferenceIdeal := by
  intro m ρ m' ρ' hpre hagree
  refine ⟨fun c => Cert.KernelIdeal.TailValue.tail (Cert.KernelIdeal.Carried.partials m c),
    Cert.KernelIdeal.Carried.run m ρ, ?_⟩
  refine (θ_run Cert.ReferenceIdeal.defs _ _).mono (fun _ h c => ⟨(h c).1.trans ?_, (h c).2⟩)
    (Cert.ReferenceIdeal.Value.run (F := Ideal) m' ρ')
  have hfin : ∀ (r : Fin 65536) (o : Fin 128),
      Cert.KernelIdeal.Carried.barr m c (ix2 r o) ≠ ⊥ ∧ Cert.KernelIdeal.Carried.barr m c (ix2 r o) ≠ ⊤ := by
    intro r o
    have hb : Cert.KernelIdeal.Carried.barr m c = m ((c.tc : Thread Cert.KernelIdeal.nD Cert.KernelIdeal.τ).loc Cert.KernelIdeal.main_arg2) :=
      Cert.KernelIdeal.Gen.V_main_arg2 m c
    rw [hb]
    exact logits_finite _ _ _ (hpre c) (ix2 r o)
  rw [Cert.ReferenceIdeal.Read.val_main_v28_eq, (hagree c).1, (hagree c).2.1, (hagree c).2.2]
  funext i
  obtain ⟨o, e, rfl⟩ : ∃ (o : Fin 128) (e : Fin 64), i = ix2 o e := ⟨i 0, i 1, eq_ix2 i⟩
  rw [Cert.ReferenceIdeal.RefValue.ref_apply]
  show _ = Cert.KernelIdeal.TailValue.tail (F := Ideal) (Cert.KernelIdeal.Carried.partials m c) (ix2 o e)
  rw [Cert.KernelIdeal.Carried.kernel_apply m c hfin o e]
  unfold Cert.KernelIdeal.Carried.barr Cert.KernelIdeal.Carried.warr Cert.KernelIdeal.Carried.uarr
  rw [Cert.KernelIdeal.Gen.V_main_arg2 m c, Cert.KernelIdeal.Gen.V_main_arg1 m c, Cert.KernelIdeal.Carried.entry_reshape m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
